-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S50000 : Shape := ⟨1, ![50000]⟩
abbrev S64x3 : Shape := ⟨2, ![64, 3]⟩
abbrev S16x128 : Shape := ⟨2, ![16, 128]⟩
abbrev S128 : Shape := ⟨1, ![128]⟩
abbrev S128x128 : Shape := ⟨2, ![128, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S131x64 .f32) (main_arg11 : FVec F S64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S131x64 .f32 := Host.absf main_arg10
  let main_cst_14 : FVec F S_ .f32 := constant S_ .f32 0x7F800000#32
  let main_v40 : FVec F S131x64 .f32 := broadcastInDim S131x64 ![] bcast_S_S131x64 main_cst_14
  let main_v41 : IVec S131x64 1 := cmpf .olt main_v39 main_v40
  let main_c_15 : IVec S_ 1 := constantI S_ 1 1#1
  let main_v42 : IVec S_ 1 := (fun x v => Host.reduce IntOp.andi x v reducesTo_S131x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S131x64 .f32) (main_arg11 : FVec F S64 .f32) (main_arg12 : FVec F S64x32 .f32) (main_arg13 : FVec F S32 .f32) (main_arg14 : FVec F S32x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x16 .f32) (main_arg1 : IVec S2x800000 32) (main_arg2 : IVec S50000 32) (main_arg3 : FVec F S64x3 .f32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S131x64 .f32) (main_arg11 : FVec F S64 .f32) (main_arg12 : FVec F S64x32 .f32) (main_arg13 : FVec F S32 .f32) (main_arg14 : FVec F S32x1 .f32) (main_arg15 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S64x3 .f32 := Host.absf main_arg3
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x16 : Shape := ⟨2, ![50000, 16]⟩
abbrev S2x800000 : Shape := ⟨2, ![2, 800000]⟩
abbrev S50000 : Shape := ⟨1, ![50000]⟩
abbrev S64x3 : Shape := ⟨2, ![64, 3]⟩
abbrev S16x128 : Shape := ⟨2, ![16, 128]⟩
abbrev S128 : Shape := ⟨1, ![128]⟩
abbrev S128x128 : Shape := ⟨2, ![128, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S10000x16 : Shape := ⟨2, ![10000, 16]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩
abbrev S1x64 : Shape := ⟨2, ![1, 64]⟩
abbrev S50000x64 : Shape := ⟨2, ![50000, 64]⟩
abbrev S64x128 : Shape := ⟨2, ![64, 128]⟩
abbrev S10000x64 : Shape := ⟨2, ![10000, 64]⟩
abbrev S64x1 : Shape := ⟨2, ![64, 1]⟩
abbrev S64x131 : Shape := ⟨2, ![64, 131]⟩
abbrev S64x64 : Shape := ⟨2, ![64, 64]⟩
abbrev S1x32 : Shape := ⟨2, ![1, 32]⟩
abbrev S1x1 : Shape := ⟨2, ![1, 1]⟩

abbrev nBuf : Space → Nat
  | .hbm => 152
  | .vmem => 35
  | .smem => 0
  | _ => 0

abbrev hbmTy0_0 (i : Nat) : BufTy := match i % 128 with
  | 0 => ⟨S50000x16, .f32⟩
  | 1 => ⟨S2x800000, .i32⟩
  | 2 => ⟨S50000, .i32⟩
  | 3 => ⟨S64x3, .f32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S131x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .bf16⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .bf16⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .bf16⟩
  | 116 => ⟨S50000x1, .i32⟩
  | 117 => ⟨S64, .i32⟩
  | 118 => ⟨S1x64, .i32⟩
  | 119 => ⟨S50000x64, .i32⟩
  | 120 => ⟨S50000x64, .i32⟩
  | 121 => ⟨S50000x64, .i1⟩
  | 122 => ⟨S50000x64, .bf16⟩
  | 123 => ⟨S64x128, .f32⟩
  | 124 => ⟨S50000x64, .f32⟩
  | 125 => ⟨S_, .f32⟩
  | 126 => ⟨S64, .f32⟩
  | 127 => ⟨S_, .f32⟩
  | _ => ⟨S50000x16, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x131, .f32⟩
  | 6 => ⟨S64x64, .f32⟩
  | 7 => ⟨S1x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x32, .f32⟩
  | 14 => ⟨S1x32, .f32⟩
  | 15 => ⟨S64x32, .f32⟩
  | 16 => ⟨S64x32, .f32⟩
  | 17 => ⟨S_, .f32⟩
  | 18 => ⟨S64x32, .f32⟩
  | 19 => ⟨S64x32, .f32⟩
  | 20 => ⟨S64x1, .f32⟩
  | 21 => ⟨S1x1, .f32⟩
  | 22 => ⟨S64x1, .f32⟩
  | 23 => ⟨S64x1, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .bf16⟩
  | .local _ .vmem, ⟨19, _⟩ => ⟨S10000x128, .bf16⟩
  | .local _ .vmem, ⟨20, _⟩ => ⟨S10000x128, .bf16⟩
  | .local _ .vmem, ⟨21, _⟩ => ⟨S10000x128, .bf16⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .bf16⟩
  | .local _ .vmem, ⟨29, _⟩ => ⟨S10000x128, .bf16⟩
  | .local _ .vmem, ⟨30, _⟩ => ⟨S10000x64, .bf16⟩
  | .local _ .vmem, ⟨31, _⟩ => ⟨S10000x64, .bf16⟩
  | .local _ .vmem, ⟨32, _⟩ => ⟨S10000x128, .bf16⟩
  | .local _ .vmem, ⟨33, _⟩ => ⟨S10000x128, .bf16⟩
  | .local _ .vmem, ⟨34, _⟩ => ⟨S64x128, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_16 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call1_cst : Ref sig .tc := ⟨.hbm, 138, rfl⟩
abbrev main_call1_v0 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S10000x128_S10000x128_0_0 : ∀ a, (![0, 0] : Fin 2 → Nat) a + S10000x128.size a ≤ S10000x128.size a
  h_S10000x128 : 0 < S10000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S64x128_S64x128 : S64x128.ShapeCasts S64x128
  reducesTo_S50000x64_S64_d0 : S50000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x3_S64x131_d1 : Shape.Concatenates [S64x128, S64x3] S64x131 1
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x16_S16x128_S10000x128_1_0_0_1_n_n_wf : DotDims.WF S10000x16 S16x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x128_S10000x128_1_0_0_1_n_n_wf : DotDims.WF S10000x128 S128x128 S10000x128 [1] [0] [0] [1] [] []
  dot_S10000x64_S10000x128_S64x128_0_0_1_1_n_n_wf : DotDims.WF S10000x64 S10000x128 S64x128 [0] [0] [1] [1] [] []
  dot_S64x131_S131x64_S64x64_1_0_0_1_n_n_wf : DotDims.WF S64x131 S131x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .bf16 = 32 ∨ (Rect.block (s := S50000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .bf16 = 32 ∨ (Rect.block (s := S50000x128) S10000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .bf16 = 32 ∨ (Rect.block (s := S50000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .bf16 = 32 ∨ (Rect.block (s := S50000x128) S10000x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .bf16 = 32 ∨ (Rect.block (s := S50000x64) S10000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .bf16 = 32 ∨ (Rect.block (s := S50000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x131_S131x64_S64x64_1_0_0_1_n_n : DotDims S64x131 S131x64 S64x64 where
  lhsContracting := [1]
  rhsContracting := [0]
  lhsNonContracting := [0]
  rhsNonContracting := [1]
  lhsBatch := []
  rhsBatch := []
  wf := dot_S64x131_S131x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v87) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S50000 : Shape := ⟨1, ![50000]⟩
abbrev S64x3 : Shape := ⟨2, ![64, 3]⟩
abbrev S16x128 : Shape := ⟨2, ![16, 128]⟩
abbrev S128 : Shape := ⟨1, ![128]⟩
abbrev S128x128 : Shape := ⟨2, ![128, 128]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x131 : Shape := ⟨2, ![64, 131]⟩
abbrev S64x64 : Shape := ⟨2, ![64, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S50000x16, .f32⟩
  | 1 => ⟨S2x800000, .i32⟩
  | 2 => ⟨S50000, .i32⟩
  | 3 => ⟨S64x3, .f32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S131x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x16, .f32⟩

abbrev hbmTy0_1 (i : Nat) : BufTy := match i % 128 with
  | 0 => ⟨S_, .f32⟩
  | 1 => ⟨S64x128, .f32⟩
  | 2 => ⟨S50000x1, .i32⟩
  | 3 => ⟨S64x128, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x128, .f32⟩
  | 15 => ⟨S64x128, .f32⟩
  | 16 => ⟨S64x131, .f32⟩
  | 17 => ⟨S64x64, .f32⟩
  | 18 => ⟨S1x64, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S64x32, .f32⟩
  | 25 => ⟨S1x32, .f32⟩
  | 26 => ⟨S64x32, .f32⟩
  | 27 => ⟨S64x32, .f32⟩
  | 28 => ⟨S_, .f32⟩
  | 29 => ⟨S64x32, .f32⟩
  | 30 => ⟨S64x32, .f32⟩
  | 31 => ⟨S64x1, .f32⟩
  | 32 => ⟨S1x1, .f32⟩
  | 33 => ⟨S64x1, .f32⟩
  | 34 => ⟨S64x1, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_c_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call3_cst : Ref sig .tc := ⟨.hbm, 125, rfl⟩
abbrev main_call3_v0 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_cst_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call4_cst : Ref sig .tc := ⟨.hbm, 149, rfl⟩
abbrev main_call4_v0 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call5_cst : Ref sig .tc := ⟨.hbm, 156, rfl⟩
abbrev main_call5_v0 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x3_S64x131_d1 : Shape.Concatenates [S64x128, S64x3] S64x131 1
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x16_S16x128_S50000x128_1_0_0_1_n_n_wf : DotDims.WF S50000x16 S16x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x131_S131x64_S64x64_1_0_0_1_n_n_wf : DotDims.WF S64x131 S131x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x131_S131x64_S64x64_1_0_0_1_n_n : DotDims S64x131 S131x64 S64x64 where
  lhsContracting := [1]
  rhsContracting := [0]
  lhsNonContracting := [0]
  rhsNonContracting := [1]
  lhsBatch := []
  rhsBatch := []
  wf := dot_S64x131_S131x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.ChainA.lean ====
/-
  The kernel program's buffers before its first region, read against the reference's stages.

  Before the first dense transform both programs run the same operations on the edge list: the senders and
  the receivers (each row of the edge list followed by the self loops 0 … 49999), the degree of every node
  (a sum of ones scattered to the receivers), its inverse square root where the degree is positive, and the
  edge weight, the product of the two end points' inverse square roots. The kernel program holds these in
  its own buffers after its first three stretches of host operations; here each is shown to be the
  reference's value of the same name, as a function of the edge list alone: the operations are the same,
  applied in the same order to the same argument. This needs nothing of the numbers: it holds for any
  interpretation of the float operations, and is stated so. The argument arrays themselves are untouched
  by these stretches.
-/
import proofs.«404155_j15109694947665_1_alg».proof.Proof.Gen.KernelIdeal.Frame
import proofs.«404155_j15109694947665_1_alg».proof.Proof.RefRead

set_option maxRecDepth 16384

noncomputable section

namespace Cert.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## After the first stretch: senders, receivers, the degree's test and inverse square root -/

set_option maxHeartbeats 1000000 in
theorem h1_v3 : W1 m ρ c (Proc.devRef .tc main_v3) = Cert.ReferenceIdeal.ReadP.val_main_v3 (F := F) (m ((c : Thread nD τ).loc main_arg1)) := by
  after_results
  rfl
set_option maxHeartbeats 1000000 in
theorem h1_v6 : W1 m ρ c (Proc.devRef .tc main_v6) = Cert.ReferenceIdeal.ReadP.val_main_v6 (F := F) (m ((c : Thread nD τ).loc main_arg1)) := by
  after_results
  rfl
set_option maxHeartbeats 1000000 in
theorem h1_v12 : W1 m ρ c (Proc.devRef .tc main_v12) = Cert.ReferenceIdeal.ReadP.val_main_v12 (F := F) (m ((c : Thread nD τ).loc main_arg1)) := by
  after_results
  rfl
set_option maxHeartbeats 1000000 in
theorem h1_v15 : W1 m ρ c (Proc.devRef .tc main_v15) = Cert.ReferenceIdeal.ReadP.val_main_v15 (F := F) (m ((c : Thread nD τ).loc main_arg1)) := by
  after_results
  rfl
set_option maxHeartbeats 1000000 in
theorem h1_cst3 : W1 m ρ c (Proc.devRef .tc main_cst_3) = Cert.ReferenceIdeal.ReadP.val_main_cst_3 (F := F) := by
  after_results
  rfl

/-! ## After the second stretch: the inverse square root of the degree, zero where the degree is zero -/

section Second
-- the level below is opaque while the stretch above it is read
set_option allowUnsafeReducibility true in
attribute [local irreducible] W1

set_option maxHeartbeats 1000000 in
theorem h2_v16 : W2 m ρ c (Proc.devRef .tc main_v16) = Cert.ReferenceIdeal.ReadP.val_main_v16 (F := F) (m ((c : Thread nD τ).loc main_arg1)) := by
  after_results_simp
  rw [h1_v12 m ρ c, h1_v15 m ρ c, h1_cst3 m ρ c]
  rfl
theorem h2_v3 : W2 m ρ c (Proc.devRef .tc main_v3) = Cert.ReferenceIdeal.ReadP.val_main_v3 (F := F) (m ((c : Thread nD τ).loc main_arg1)) := by
  after_results_simp
  exact h1_v3 m ρ c
theorem h2_v6 : W2 m ρ c (Proc.devRef .tc main_v6) = Cert.ReferenceIdeal.ReadP.val_main_v6 (F := F) (m ((c : Thread nD τ).loc main_arg1)) := by
  after_results_simp
  exact h1_v6 m ρ c
end Second

/-! ## After the third stretch: the edge weights; senders and receivers carried along -/

section Third
-- the level below is opaque while the stretch above it is read
set_option allowUnsafeReducibility true in
attribute [local irreducible] W2

set_option maxHeartbeats 1000000 in
theorem h3_v31 : W3 m ρ c (Proc.devRef .tc main_v31) = Cert.ReferenceIdeal.ReadP.val_main_v31 (F := F) (m ((c : Thread nD τ).loc main_arg1)) := by
  after_results_simp
  rw [h2_v16 m ρ c, h2_v3 m ρ c, h2_v6 m ρ c]
  rfl
theorem h3_v3 : W3 m ρ c (Proc.devRef .tc main_v3) = Cert.ReferenceIdeal.ReadP.val_main_v3 (F := F) (m ((c : Thread nD τ).loc main_arg1)) := by
  after_results_simp
  exact h2_v3 m ρ c
theorem h3_v6 : W3 m ρ c (Proc.devRef .tc main_v6) = Cert.ReferenceIdeal.ReadP.val_main_v6 (F := F) (m ((c : Thread nD τ).loc main_arg1)) := by
  after_results_simp
  exact h2_v6 m ρ c
end Third

/-! ## The argument arrays are as launched: no operation of the three stretches writes one -/

/-- The sixteen argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15]

set_option maxHeartbeats 4000000 in
theorem h3_arg : ∀ b ∈ argRefs, W3 m ρ c (Proc.devRef .tc b) = m ((c : Thread nD τ).loc b) := by
  intro b hb
  simp only [argRefs, List.mem_cons, List.not_mem_nil, or_false] at hb
  rcases hb with rfl | rfl | rfl | rfl | rfl | rfl | rfl | rfl | rfl | rfl | rfl | rfl | rfl | rfl | rfl | rfl
  all_goals after_results_simp

end Cert.Chain

end
-- ==== Proof.RefShape.lean ====
/-
  The reference's computation, cut at the places where the kernel program computes something by another
  route.

  The reference is one long chain of operations. Three stretches of it recur or end it, and each is a
  function of a few values only: the aggregation over the edges (gather the rows of a layer's dense result
  at the senders, scale by the edge weight, add into the receiver's row: a function of the edge list and
  of the dense result), used once per layer; and the last stretch (divide the segment sums by the segment
  counts cut off below at one, append the global features, run the three small dense layers: a function of
  the sums, the counts and the remaining arguments). Naming these functions lets the two programs be
  compared stage by stage: here each of the reference's stages concerned is shown to be such a function of
  the stage before, by unfolding its definition.
-/
import proofs.«404155_j15109694947665_1_alg».proof.Proof.RefRead

set_option maxRecDepth 16384

noncomputable section

namespace Cert.ReferenceIdeal.Shape

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Gather the rows of `x` at the senders, scale each by its edge weight, add it into its receiver's row. -/
def aggOf (x1 : (⟨S2x800000, .i32⟩ : BufTy).Contents (Elt F)) (x : (⟨S50000x128, .f32⟩ : BufTy).Contents (Elt F)) : (⟨S50000x128, .f32⟩ : BufTy).Contents (Elt F) :=
  Host.scatterAdd scatter_S50000x128_S850000x1_S850000x128_1_0_0_1 (val_main_v43 (F := F)) (val_main_v44 (F := F) x1)
    (mulf (Host.gather gather_S50000x128_S850000x1_S850000x128_1_0_n_n_0_1_1128 x (val_main_v38 (F := F) x1)) (val_main_v41 (F := F) x1))

/-- The first layer's aggregate is that function of the first dense result, -/
theorem val45_eq (x0 : (⟨S50000x16, .f32⟩ : BufTy).Contents (Elt F)) (x1 : (⟨S2x800000, .i32⟩ : BufTy).Contents (Elt F)) (x4 : (⟨S16x128, .f32⟩ : BufTy).Contents (Elt F)) :
    val_main_v45 (F := F) x0 x1 x4 = aggOf x1 (val_main_v32 (F := F) x0 x4) := rfl
/-- the second layer's of the second, -/
theorem val63_eq (x0 : (⟨S50000x16, .f32⟩ : BufTy).Contents (Elt F)) (x1 : (⟨S2x800000, .i32⟩ : BufTy).Contents (Elt F)) (x4 : (⟨S16x128, .f32⟩ : BufTy).Contents (Elt F)) (x5 : (⟨S128, .f32⟩ : BufTy).Contents (Elt F)) (x6 : (⟨S128x128, .f32⟩ : BufTy).Contents (Elt F)) :
    val_main_v63 (F := F) x0 x1 x4 x5 x6 = aggOf x1 (val_main_v50 (F := F) x0 x1 x4 x5 x6) := rfl
/-- and the third layer's of the third. -/
theorem val81_eq (x0 : (⟨S50000x16, .f32⟩ : BufTy).Contents (Elt F)) (x1 : (⟨S2x800000, .i32⟩ : BufTy).Contents (Elt F)) (x4 : (⟨S16x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) :
    val_main_v81 (F := F) x0 x1 x4 x5 x6 x7 x8 = aggOf x1 (val_main_v68 (F := F) x0 x1 x4 x5 x6 x7 x8) := rfl

/-- From the segment sums `s` and the segment counts `n` to the result: the mean (the count cut off below at
    one), the global features appended, then three dense layers, the first two followed by a rectifier. -/
def tailOf (s : (⟨S64x128, .f32⟩ : BufTy).Contents (Elt F)) (n : (⟨S64, .f32⟩ : BufTy).Contents (Elt F)) (x3 : (⟨S64x3, .f32⟩ : BufTy).Contents (Elt F)) (x10 : (⟨S131x64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32x1, .f32⟩ : BufTy).Contents (Elt F)) (x15 : (⟨S1, .f32⟩ : BufTy).Contents (Elt F)) : (⟨S64x1, .f32⟩ : BufTy).Contents (Elt F) :=
  addf
    (Host.dotGeneral dot_S64x32_S32x1_S64x1_1_0_0_1_n_n none
      (maximumf
        (addf
          (Host.dotGeneral dot_S64x64_S64x32_S64x32_1_0_0_1_n_n none
            (maximumf
              (addf
                (Host.dotGeneral dot_S64x131_S131x64_S64x64_1_0_0_1_n_n none
                  (concatenate S64x131 1
                    [⟨S64x128, (Host.divf s (broadcastInDim S64x128 ![0, 1] bcast_S64x1_S64x128_0_1
                        (broadcastInDim S64x1 ![0] bcast_S64_S64x1_0 (maximumf n (val_main_v93 (F := F))))))⟩,
                     ⟨S64x3, (x3)⟩] concatenates_S64x128_S64x3_S64x131_d1)
                  (x10))
                (val_main_v101 (F := F) x11))
              (val_main_call4_v0 (F := F)))
            (x12))
          (val_main_v106 (F := F) x13))
        (val_main_call5_v0 (F := F)))
      (x14))
    (val_main_v111 (F := F) x15)

/-- The reference's result is that function of its segment sums and counts. -/
theorem val112_eq (x0 : (⟨S50000x16, .f32⟩ : BufTy).Contents (Elt F)) (x1 : (⟨S2x800000, .i32⟩ : BufTy).Contents (Elt F)) (x2 : (⟨S50000, .i32⟩ : BufTy).Contents (Elt F)) (x3 : (⟨S64x3, .f32⟩ : BufTy).Contents (Elt F)) (x4 : (⟨S16x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S131x64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32x1, .f32⟩ : BufTy).Contents (Elt F)) (x15 : (⟨S1, .f32⟩ : BufTy).Contents (Elt F)) :
    val_main_v112 (F := F) x0 x1 x2 x3 x4 x5 x6 x7 x8 x9 x10 x11 x12 x13 x14 x15
      = tailOf (val_main_v88 (F := F) x0 x1 x2 x4 x5 x6 x7 x8 x9) (val_main_v92 (F := F) x2) x3 x10 x11 x12 x13 x14 x15 := rfl

end Cert.ReferenceIdeal.Shape

end
-- ==== Proof.ChainB.lean ====
/-
  The kernel program's host side after its first region, read for any interpretation of the floats.

  Three kinds of facts, none of which needs anything of the numbers. (1) What no operation and no region
  writes is carried along unchanged: the senders, the receivers, the edge weights and the argument arrays
  still to be read. (2) The stretch after each dense transform gathers the rows of the transform's result
  at the senders, scales each by its edge weight and adds it into its receiver's row: one function of the
  edge list and of that result, the same function the reference applies, three times; beside it the bias
  vector is laid out as a row. (3) The stretches around the pooling build the table of segment membership
  from the segment ids, and after the pooling divide the sums by the counts and run the small dense
  network: the reference's last stretch, applied to the kernel program's sums and to its own count, the
  column sums of the table.
-/
import proofs.«404155_j15109694947665_1_alg».proof.Proof.ChainA
import proofs.«404155_j15109694947665_1_alg».proof.Proof.RefShape

set_option maxRecDepth 16384

noncomputable section

namespace Cert.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## What is carried along: written by no operation, an array of no region -/

/-- The senders, the receivers, the edge weights, and the arguments read after the first region that are no
    region's own array. -/
abbrev carried : List (Ref sig .tc) := [main_v3, main_v6, main_v31, main_arg2, main_arg3, main_arg5, main_arg7, main_arg9, main_arg10, main_arg11, main_arg12, main_arg13, main_arg14, main_arg15]

theorem keep4 : ∀ b ∈ carried, W4 m ρ c (Proc.devRef .tc b) = W3 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W4_of_ne m ρ c _ (by decide)
set_option maxHeartbeats 2000000 in
theorem keep5 : ∀ b ∈ carried, W5 m ρ c (Proc.devRef .tc b) = W4 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals after_results_simp
theorem keep6 : ∀ b ∈ carried, W6 m ρ c (Proc.devRef .tc b) = W5 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W6_of_ne m ρ c _ (by decide)
theorem keep7 : ∀ b ∈ carried, W7 m ρ c (Proc.devRef .tc b) = W6 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W7_of_ne m ρ c _ (by decide)
set_option maxHeartbeats 2000000 in
theorem keep8 : ∀ b ∈ carried, W8 m ρ c (Proc.devRef .tc b) = W7 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals after_results_simp
theorem keep9 : ∀ b ∈ carried, W9 m ρ c (Proc.devRef .tc b) = W8 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W9_of_ne m ρ c _ (by decide)
theorem keep10 : ∀ b ∈ carried, W10 m ρ c (Proc.devRef .tc b) = W9 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W10_of_ne m ρ c _ (by decide)
set_option maxHeartbeats 2000000 in
theorem keep11 : ∀ b ∈ carried, W11 m ρ c (Proc.devRef .tc b) = W10 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals after_results_simp
theorem keep12 : ∀ b ∈ carried, W12 m ρ c (Proc.devRef .tc b) = W11 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W12_of_ne m ρ c _ (by decide)
set_option maxHeartbeats 2000000 in
theorem keep13 : ∀ b ∈ carried, W13 m ρ c (Proc.devRef .tc b) = W12 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals after_results_simp
theorem keep14 : ∀ b ∈ carried, W14 m ρ c (Proc.devRef .tc b) = W13 m ρ c (Proc.devRef .tc b) := by
  intro b hb
  simp only [carried, List.mem_cons, List.not_mem_nil, or_false] at hb
  rcases hb with rfl | rfl | rfl | rfl | rfl | rfl | rfl | rfl | rfl | rfl | rfl | rfl | rfl | rfl
  all_goals exact W14_of_ne m ρ c _ (by decide)

theorem at4 (b : Ref sig .tc) (hb : b ∈ carried) : W4 m ρ c (Proc.devRef .tc b) = W3 m ρ c (Proc.devRef .tc b) := keep4 m ρ c b hb
theorem at7 (b : Ref sig .tc) (hb : b ∈ carried) : W7 m ρ c (Proc.devRef .tc b) = W3 m ρ c (Proc.devRef .tc b) :=
  (keep7 m ρ c b hb).trans ((keep6 m ρ c b hb).trans ((keep5 m ρ c b hb).trans (keep4 m ρ c b hb)))
theorem at10 (b : Ref sig .tc) (hb : b ∈ carried) : W10 m ρ c (Proc.devRef .tc b) = W3 m ρ c (Proc.devRef .tc b) :=
  (keep10 m ρ c b hb).trans ((keep9 m ρ c b hb).trans ((keep8 m ρ c b hb).trans (at7 m ρ c b hb)))
theorem at12 (b : Ref sig .tc) (hb : b ∈ carried) : W12 m ρ c (Proc.devRef .tc b) = W3 m ρ c (Proc.devRef .tc b) :=
  (keep12 m ρ c b hb).trans ((keep11 m ρ c b hb).trans (at10 m ρ c b hb))
theorem at14 (b : Ref sig .tc) (hb : b ∈ carried) : W14 m ρ c (Proc.devRef .tc b) = W3 m ρ c (Proc.devRef .tc b) :=
  (keep14 m ρ c b hb).trans ((keep13 m ρ c b hb).trans (at12 m ρ c b hb))

/-! The second and third weight matrices are a later region's own input array, so they are followed down by hand
    to the region that reads them. -/

theorem arg6_at6 : W6 m ρ c (Proc.devRef .tc main_arg6) = (m ((c : Thread nD τ).loc main_arg6)) := by
  rw [W6_of_ne m ρ c main_arg6 (by decide)]
  after_results_simp
  rw [W4_of_ne m ρ c main_arg6 (by decide)]
  exact h3_arg m ρ c main_arg6 (by simp)

theorem arg8_at9 : W9 m ρ c (Proc.devRef .tc main_arg8) = (m ((c : Thread nD τ).loc main_arg8)) := by
  rw [W9_of_ne m ρ c main_arg8 (by decide)]
  after_results_simp
  rw [W7_of_ne m ρ c main_arg8 (by decide), W6_of_ne m ρ c main_arg8 (by decide)]
  after_results_simp
  rw [W4_of_ne m ρ c main_arg8 (by decide)]
  exact h3_arg m ρ c main_arg8 (by simp)

/-! ## The aggregation over the edges, three times, and the bias rows -/

set_option maxHeartbeats 2000000 in
/-- The first aggregation stretch: the kernel program's aggregate is that function of the dense result before it. -/
theorem agg5 (x : (⟨Cert.ReferenceIdeal.S50000x128, .f32⟩ : BufTy).Contents (Elt F)) (hx : W4 m ρ c (Proc.devRef .tc main_v32) = x) :
    W5 m ρ c (Proc.devRef .tc main_v45) = Cert.ReferenceIdeal.Shape.aggOf (m ((c : Thread nD τ).loc main_arg1)) x := by
  after_results_simp
  rw [hx, at4 m ρ c main_v6 (by simp), at4 m ρ c main_v3 (by simp), at4 m ρ c main_v31 (by simp), h3_v6 m ρ c, h3_v3 m ρ c, h3_v31 m ρ c]
  rfl
set_option maxHeartbeats 2000000 in
/-- The second aggregation stretch: the kernel program's aggregate is that function of the dense result before it. -/
theorem agg8 (x : (⟨Cert.ReferenceIdeal.S50000x128, .f32⟩ : BufTy).Contents (Elt F)) (hx : W7 m ρ c (Proc.devRef .tc main_v48) = x) :
    W8 m ρ c (Proc.devRef .tc main_v61) = Cert.ReferenceIdeal.Shape.aggOf (m ((c : Thread nD τ).loc main_arg1)) x := by
  after_results_simp
  rw [hx, at7 m ρ c main_v6 (by simp), at7 m ρ c main_v3 (by simp), at7 m ρ c main_v31 (by simp), h3_v6 m ρ c, h3_v3 m ρ c, h3_v31 m ρ c]
  rfl
set_option maxHeartbeats 2000000 in
/-- The third aggregation stretch: the kernel program's aggregate is that function of the dense result before it. -/
theorem agg11 (x : (⟨Cert.ReferenceIdeal.S50000x128, .f32⟩ : BufTy).Contents (Elt F)) (hx : W10 m ρ c (Proc.devRef .tc main_v64) = x) :
    W11 m ρ c (Proc.devRef .tc main_v77) = Cert.ReferenceIdeal.Shape.aggOf (m ((c : Thread nD τ).loc main_arg1)) x := by
  after_results_simp
  rw [hx, at10 m ρ c main_v6 (by simp), at10 m ρ c main_v3 (by simp), at10 m ρ c main_v31 (by simp), h3_v6 m ρ c, h3_v3 m ρ c, h3_v31 m ρ c]
  rfl

/-- The first bias, laid out as one row. -/
theorem row5 : W5 m ρ c (Proc.devRef .tc main_v46) = shapeCast S1x128 (m ((c : Thread nD τ).loc main_arg5)) shapeCasts_S128_S1x128 := by
  after_results_simp
  rw [at4 m ρ c main_arg5 (by simp), h3_arg m ρ c main_arg5 (by simp)]
  rfl
/-- The second bias, laid out as one row. -/
theorem row8 : W8 m ρ c (Proc.devRef .tc main_v62) = shapeCast S1x128 (m ((c : Thread nD τ).loc main_arg7)) shapeCasts_S128_S1x128 := by
  after_results_simp
  rw [at7 m ρ c main_arg7 (by simp), h3_arg m ρ c main_arg7 (by simp)]
  rfl
/-- The third bias, laid out as one row. -/
theorem row11 : W11 m ρ c (Proc.devRef .tc main_v78) = shapeCast S1x128 (m ((c : Thread nD τ).loc main_arg9)) shapeCasts_S128_S1x128 := by
  after_results_simp
  rw [at10 m ρ c main_arg9 (by simp), h3_arg m ρ c main_arg9 (by simp)]
  rfl

/-! ## Around the pooling -/

/-- The table of segment membership: row `n`, column `g` is the one-bit test "the segment id of node `n` is `g`",
    read as an unsigned number. -/
def table (b : (⟨S50000, .i32⟩ : BufTy).Contents (Elt F)) : (⟨S50000x64, .bf16⟩ : BufTy).Contents (Elt F) :=
  uitofp .bf16
    (cmpi .eq
      (broadcastInDim S50000x64 ![0, 1] bcast_S50000x1_S50000x64_0_1 (broadcastInDim S50000x1 ![0] bcast_S50000_S50000x1_0 b))
      (broadcastInDim S50000x64 ![0, 1] bcast_S1x64_S50000x64_0_1 (broadcastInDim S1x64 ![1] bcast_S64_S1x64_1 (iotaInDim S64 32 0))))

/-- What the pooling region finds as its table, -/
theorem tbl13 : W13 m ρ c (Proc.devRef .tc main_v86) = table (m ((c : Thread nD τ).loc main_arg2)) := by
  after_results_simp
  rw [at12 m ρ c main_arg2 (by simp), h3_arg m ρ c main_arg2 (by simp)]
  rfl
/-- and as its features: what the third layer left. -/
theorem feat13 : W13 m ρ c (Proc.devRef .tc main_v79) = W12 m ρ c (Proc.devRef .tc main_v79) := by
  after_results_simp
/-- The pooling region reads its table and does not write it. -/
theorem tbl14 : W14 m ρ c (Proc.devRef .tc main_v86) = W13 m ρ c (Proc.devRef .tc main_v86) :=
  (W14_arr m ρ c 0).trans (((dat6 (V13 m ρ) c).arrAt_in 0 rfl _).trans (A_eq6 (V13 m ρ) c 0))

set_option maxHeartbeats 8000000 in
/-- THE LAST STRETCH: the result buffer is the reference's last stretch applied to the pooled sums `s` the region
    left, to the column sums of the table, and to the remaining arguments. -/
theorem tail19 (s : (⟨Cert.ReferenceIdeal.S64x128, .f32⟩ : BufTy).Contents (Elt F)) (hs : W14 m ρ c (Proc.devRef .tc main_v87) = s) :
    W19 m ρ c (Proc.devRef .tc main_v109)
      = Cert.ReferenceIdeal.Shape.tailOf s
          (Host.reduceAdd (extf .f32 (table (m ((c : Thread nD τ).loc main_arg2))) bitsLt_bf16_f32) (constant S_ .f32 0x00000000#32) reducesTo_S50000x64_S64_d0 h_S_)
          (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  after_results
  rw [hs, tbl14 m ρ c, tbl13 m ρ c]
  rw [at14 m ρ c main_arg3 (by simp), at14 m ρ c main_arg10 (by simp), at14 m ρ c main_arg11 (by simp), at14 m ρ c main_arg12 (by simp),
    at14 m ρ c main_arg13 (by simp), at14 m ρ c main_arg14 (by simp), at14 m ρ c main_arg15 (by simp)]
  rw [h3_arg m ρ c main_arg3 (by simp), h3_arg m ρ c main_arg10 (by simp), h3_arg m ρ c main_arg11 (by simp), h3_arg m ρ c main_arg12 (by simp),
    h3_arg m ρ c main_arg13 (by simp), h3_arg m ρ c main_arg14 (by simp), h3_arg m ρ c main_arg15 (by simp)]
  rfl

end Cert.Chain

end
-- ==== Proof.Dense0.lean ====
/-
  The first dense transform, read as one array.

  The region runs over the 5 blocks of 10000 rows. At a block the body multiplies the block of `x` by the
  whole of `w` into a zero accumulator (the change of float format before the product is the identity on
  exact values), and writes the product back as the same block of rows of the result. So after the region
  the result array holds, at row `n` and column `j`, the sum over `k` of `x[n, k] * w[k, j]`: every row lies
  in exactly one block, and within a block the row's sum reads only that row of `x`.
-/
import proofs.«404155_j15109694947665_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Dense0

open Idealize.ShloMosaic Idealize.ShloMosaic.TcCoe Idealize.SL.Sem
open Cert.KernelIdeal Cert.KernelIdeal.Gen

-- the TensorCore's buffer contents when the region is entered
variable (V : (c : Dev nD) → (b : Ref sig .tc) → Buf (Elt Ideal) ((c : Thread nD τ).loc b))

/-- The two input arrays as the region finds them, at their literal types. -/
abbrev xs (c : Dev nD) : FVec Ideal S50000x16 .f32 := V c (Pipeline.arrRef spec0 0)
abbrev ws (c : Dev nD) : FVec Ideal S16x128 .f32 := V c (Pipeline.arrRef spec0 1)

/-- Row `i 0` of `x`, at contraction position `k`. -/
abbrev lix (i : S50000x128.Idx) (k : Fin 16) : S50000x16.Idx := fun a => match a with
  | ⟨0, _⟩ => ⟨(i 0).val, (i 0).isLt⟩
  | ⟨1, _⟩ => ⟨k.val, k.isLt⟩
/-- Column `i 1` of `w`, at contraction position `k`. -/
abbrev rix (i : S50000x128.Idx) (k : Fin 16) : S16x128.Idx := fun a => match a with
  | ⟨0, _⟩ => ⟨k.val, k.isLt⟩
  | ⟨1, _⟩ => ⟨(i 1).val, (i 1).isLt⟩

/-! ## The body's product at an index -/

/-- The body's accesses all start at the origin of their buffers. -/
theorem origin : (![0, 0] : Fin 2 → Nat) = fun _ => 0 := funext fun a => by fin_cases a <;> rfl

/-- The left operand is read at the result's row: axis 0 of the left operand is its free axis. -/
theorem lhs_free (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
/-- Axis 1 of the left operand is the contracted one. -/
theorem lhs_contracted (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
/-- Axis 0 of the right operand is the contracted one. -/
theorem rhs_contracted (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
/-- The right operand is read at the result's column: axis 1 of the right operand is its free axis. -/
theorem rhs_free (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- The body's payload at row `p` and column `q` of a block: the two changes of float format are the identity on
    exact values, the accumulator is the zero splat, so the entry is the sum over the 16 contraction positions of
    row `p` of the left block times column `q` of the right one. -/
theorem product_apply (x0 : Vec Ideal S10000x16 .f32) (x1 : Vec Ideal S16x128 .f32) (p : Fin 10000) (q : Fin 128) :
    k0_pay1 x0 x1 (ValueIdx.ix2 p q) = ∑ k : Fin 16, x0 (ValueIdx.ix2 p k) * x1 (ValueIdx.ix2 k q) := by
  unfold k0_pay1
  refine (Ideal.matmul_constant_zero_apply dot_S10000x16_S16x128_S10000x128_1_0_0_1_n_n none _ _ (ValueIdx.ix2 p q)).trans ?_
  rw [← Equiv.sum_comp (ValueIdx.contrEquiv1 dot_S10000x16_S16x128_S10000x128_1_0_0_1_n_n 16 rfl rfl).symm]
  refine Finset.sum_congr rfl fun k _ => ?_
  have hk := ValueIdx.contrEquiv1_symm_val dot_S10000x16_S16x128_S10000x128_1_0_0_1_n_n 16 rfl rfl k
  have el : dot_S10000x16_S16x128_S10000x128_1_0_0_1_n_n.lhsIdx (ValueIdx.ix2 p q) ((ValueIdx.contrEquiv1 dot_S10000x16_S16x128_S10000x128_1_0_0_1_n_n 16 rfl rfl).symm k) = ValueIdx.ix2 p k := funext fun a => Fin.ext (by
    match a with
    | ⟨0, _⟩ => exact lhs_free _ _
    | ⟨1, _⟩ => exact (lhs_contracted _ _).trans hk)
  have er : dot_S10000x16_S16x128_S10000x128_1_0_0_1_n_n.rhsIdx (ValueIdx.ix2 p q) ((ValueIdx.contrEquiv1 dot_S10000x16_S16x128_S10000x128_1_0_0_1_n_n 16 rfl rfl).symm k) = ValueIdx.ix2 k q := funext fun a => Fin.ext (by
    match a with
    | ⟨0, _⟩ => exact (rhs_contracted _ _).trans hk
    | ⟨1, _⟩ => exact rhs_free _ _)
  rw [el, er]
  rfl

/-! ## From blocks to the array -/

/-- The block indices of the three windows, decided over the 5 points: at point `t` the window over `x` and the window
    over the result both sit at block row `t`, block column 0; the window over `w` is the whole of `w` at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two arrays as the region finds them: what the result array is shown to hold. -/
abbrev product (c : Dev nD) : FVec Ideal S50000x128 .f32 :=
  fun i => ∑ k : Fin 16, xs V c (lix i k) * ws V c (rix i k)

/-- WHAT POINT `t` WRITES BACK is block `t` of the product of the whole arrays: the body's one store fills the staging
    buffer with the product of its two loaded blocks; row `p` of the block of `x` at point `t` is row `10000 t + p` of
    `x`, which is the row of the result the entry lands in, and the block of `w` is all of `w`. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S10000x16) origin, View.ld_unit_zero (S := S16x128) origin]
  obtain ⟨e00, e01, e10, e11, e20, e21⟩ := block_indices t
  funext j
  obtain ⟨p, q, rfl⟩ : ∃ (p : Fin 10000) (q : Fin 128), j = ValueIdx.ix2 p q := ⟨j 0, j 1, ValueIdx.eq_ix2 j⟩
  show k0_pay1 (iblk0 V c 0 t) (iblk0 V c 1 t) (ValueIdx.ix2 p q)
    = ∑ k : Fin 16, xs V c (lix (((cfg0.win 2).blk t).view.emb (ValueIdx.ix2 p q)) k) * ws V c (rix (((cfg0.win 2).blk t).view.emb (ValueIdx.ix2 p q)) k)
  refine (product_apply _ _ p q).trans ?_
  refine Finset.sum_congr rfl fun k _ => ?_
  have hl : iblk0 V c 0 t (ValueIdx.ix2 p k) = xs V c (lix (((cfg0.win 2).blk t).view.emb (ValueIdx.ix2 p q)) k) := by
    show V c (Pipeline.arrRef spec0 0) (((cfg0.win 0).blk t).view.emb (ValueIdx.ix2 p k)) = V c (Pipeline.arrRef spec0 0) (lix (((cfg0.win 2).blk t).view.emb (ValueIdx.ix2 p q)) k)
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 16 + 1 * k.val = k.val; omega
  have hr : iblk0 V c 1 t (ValueIdx.ix2 k q) = ws V c (rix (((cfg0.win 2).blk t).view.emb (ValueIdx.ix2 p q)) k) := by
    show V c (Pipeline.arrRef spec0 1) (((cfg0.win 1).blk t).view.emb (ValueIdx.ix2 k q)) = V c (Pipeline.arrRef spec0 1) (rix (((cfg0.win 2).blk t).view.emb (ValueIdx.ix2 p q)) k)
    refine congrArg _ (funext fun a => Fin.ext ?_)
    match a with
    | ⟨0, _⟩ => show win0_1.index t (0 : Fin 2) * 16 + 1 * k.val = k.val; omega
    | ⟨1, _⟩ => show win0_1.index t (1 : Fin 2) * 128 + 1 * q.val = win0_2.index t (1 : Fin 2) * 128 + 1 * q.val; omega
  rw [hl, hr]

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The 5 blocks of 10000 rows tile the 50000 rows: row `r` lies in the block of point `r / 10000`, and every block spans
    all 128 columns. -/
theorem cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 5 := N_0
  have ht : (i 0).val / 10000 < cfg0.N := by omega
  obtain ⟨-, -, -, -, e20, e21⟩ := block_indices ⟨(i 0).val / 10000, ht⟩
  refine ⟨⟨(i 0).val / 10000, ht⟩, flush0_2 _, ?_⟩
  rw [mem_block]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [e20]; show (i 0).val / 10000 * 10000 ≤ (i 0).val ∧ (i 0).val < (i 0).val / 10000 * 10000 + 10000; omega
  | ⟨1, _⟩ => show win0_2.index ⟨(i 0).val / 10000, ht⟩ (1 : Fin 2) * 128 ≤ (i 1).val ∧ (i 1).val < win0_2.index ⟨(i 0).val / 10000, ht⟩ (1 : Fin 2) * 128 + 128; rw [e21]; omega

/-- THE RESULT ARRAY of the region: at every index the sum over the contraction of the products of the two
    input arrays as the region finds them. -/
theorem arr_eq (c : Dev nD) :
    (dat0 V c).arrAt 2 cfg0.N
      = (fun i => ∑ k : Fin 16, xs V c (lix i k) * ws V c (rix i k) : FVec Ideal S50000x128 .f32) :=
  (dat0 V c).arrAt_eq_of_cover 2 (product V c) (fun t _ => flushed_eq V c t) cover

end Cert.KernelIdeal.Dense0

end
-- ==== Proof.Dense2.lean ====
/-
  The second dense transform, read as one array.

  The region runs over the 5 blocks of 10000 rows. At a block the body multiplies the block of `x` by the
  whole of `w` into a zero accumulator (the change of float format before the product is the identity on
  exact values), and writes the product back as the same block of rows of the result. So after the region
  the result array holds, at row `n` and column `j`, the sum over `k` of `x[n, k] * w[k, j]`: every row lies
  in exactly one block, and within a block the row's sum reads only that row of `x`.
-/
import proofs.«404155_j15109694947665_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Dense2

open Idealize.ShloMosaic Idealize.ShloMosaic.TcCoe Idealize.SL.Sem
open Cert.KernelIdeal Cert.KernelIdeal.Gen

/-! ## The body's product at an index

  The contraction runs over the one axis of length 128: axis 1 of the left operand, axis 0 of the right. The
  left operand's other axis (the row) and the right operand's other axis (the column) are the result's. -/

/-- The left operand's row is the result's row, -/
theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and its column is the contraction position. -/
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction position, -/
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- and its column is the result's column. -/
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Inside a block: row `j 0` of the block of `x`, at contraction position `k`. -/
abbrev blix (j : S10000x128.Idx) (k : Fin 128) : S10000x128.Idx := fun a => match a with
  | ⟨0, _⟩ => ⟨(j 0).val, (j 0).isLt⟩
  | ⟨1, _⟩ => ⟨k.val, k.isLt⟩
/-- Inside a block: column `j 1` of `w`, at contraction position `k`. -/
abbrev brix (j : S10000x128.Idx) (k : Fin 128) : S128x128.Idx := fun a => match a with
  | ⟨0, _⟩ => ⟨k.val, k.isLt⟩
  | ⟨1, _⟩ => ⟨(j 1).val, (j 1).isLt⟩

/-- THE BODY'S RESULT at an index of the block: the two changes of format are the identity on exact values, the
    accumulator is zero, so the entry is the plain sum over the contraction of the products of row `j 0` of the
    left block and column `j 1` of the right one. -/
theorem product_apply (x0 : Vec Ideal S10000x128 .bf16) (x1 : Vec Ideal S128x128 .f32) (j : S10000x128.Idx) :
    k2_pay1 (F := Ideal) x0 x1 j = ∑ k : Fin 128, x0 (blix j k) * x1 (brix j k) := by
  unfold k2_pay1
  rw [shapeCast_self]
  refine (Ideal.matmul_constant_zero_apply dot_S10000x128_S128x128_S10000x128_1_0_0_1_n_n none x0 (truncf .bf16 x1 bitsLt_bf16_f32) j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blix j k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx j ((ValueIdx.contrEquiv1 dot_S10000x128_S128x128_S10000x128_1_0_0_1_n_n 128 rfl rfl).symm k) = brix j k := funext fun a => Fin.ext (by
    match a with
    | ⟨0, _⟩ => exact (rhs_axis0 _ _).trans hk
    | ⟨1, _⟩ => exact rhs_axis1 _ _)
  rw [el, er]
  rfl

-- the TensorCore's buffer contents when the region is entered
variable (V : (c : Dev nD) → (b : Ref sig .tc) → Buf (Elt Ideal) ((c : Thread nD τ).loc b))

/-- The two input arrays as the region finds them, at their literal types. -/
abbrev xs (c : Dev nD) : FVec Ideal S50000x128 .bf16 := V c (Pipeline.arrRef spec2 0)
abbrev ws (c : Dev nD) : FVec Ideal S128x128 .f32 := V c (Pipeline.arrRef spec2 1)

/-- Row `i 0` of `x`, at contraction position `k`. -/
abbrev lix (i : S50000x128.Idx) (k : Fin 128) : S50000x128.Idx := fun a => match a with
  | ⟨0, _⟩ => ⟨(i 0).val, (i 0).isLt⟩
  | ⟨1, _⟩ => ⟨k.val, k.isLt⟩
/-- Column `i 1` of `w`, at contraction position `k`. -/
abbrev rix (i : S50000x128.Idx) (k : Fin 128) : S128x128.Idx := fun a => match a with
  | ⟨0, _⟩ => ⟨k.val, k.isLt⟩
  | ⟨1, _⟩ => ⟨(i 1).val, (i 1).isLt⟩

/-! ## From the blocks to the array

  The region's grid has 5 points. At point `t` the window over `x` and the window over the result both sit at
  block `(t, 0)` (10000 rows, all 128 columns); the window over `w` is the whole of `w` at every point. So row
  `r` of a block is row `t * 10000 + r` of the arrays, and the sum the body forms there reads that row of `x`
  and the whole of `w`. -/

theorem zero_origin : (![0, 0] : Fin 2 → Nat) = fun _ => 0 := funext fun a => by fin_cases a <;> rfl

/-- Where the three windows' blocks sit, decided over the 5 points: the block of `x` is in the same row-block as
    the result's and in column-block 0; the block of `w` is at the origin; the result's row-block is one of the 5
    and its column-block is 0. -/
theorem block_positions : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 4
    ∧ win2_2.index t (1 : Fin 2) = 0 :=
  (by decide +kernel : ∀ t : Fin grid2.N, _)

/-- Each of the 5 row-blocks of the result is some point's. -/
theorem every_row_block : ∀ b : Fin 5, ∃ t : Fin cfg2.N, win2_2.index t = ![b.val, 0] :=
  (by decide +kernel : ∀ b : Fin 5, ∃ t : Fin grid2.N, win2_2.index t = ![b.val, 0])

/-- WHAT POINT `t` WRITES BACK is block `t` of the product of the two arrays as the region finds them: the entry
    at row `r`, column `q` of the block is the sum over `k` of `x[t * 10000 + r, k] * w[k, q]`. -/
theorem flushed_eq (c : Dev nD) (t : Fin cfg2.N) :
    (dat2 V c).flushed 2 t = ((cfg2.win 2).blk t).view.read (Elt Ideal)
      (fun i => ∑ k : Fin 128, xs V c (lix i k) * ws V c (rix i k) : FVec Ideal S50000x128 .f32) := by
  show (cfg2.win 2).cut (grid2.coords t) ((dat2 V c).after 2 t) = _
  rw [after2_2]
  unfold out2_2
  rw [View.canon_unit_zero zero_origin]
  simp only [View.ld_unit_zero (S := S10000x128) zero_origin, View.ld_unit_zero (S := S128x128) zero_origin]
  obtain ⟨e0, e1, e2, e3, e4, e5⟩ := block_positions t
  funext y
  show k2_pay1 (F := Ideal) (iblk2 V c 0 t) (iblk2 V c 1 t) y
    = ∑ k : Fin 128, xs V c (lix (((cfg2.win 2).blk t).view.emb y) k) * ws V c (rix (((cfg2.win 2).blk t).view.emb y) k)
  refine (product_apply _ _ y).trans ?_
  refine Finset.sum_congr rfl fun k _ => ?_
  -- the row of `x` the block's row is
  have hx : ((cfg2.win 0).blk t).view.emb (blix y k) = lix (((cfg2.win 2).blk t).view.emb y) k := by
    funext a; apply Fin.ext
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 128 + 1 * k.val = k.val; omega
  -- the column of `w` the block's column is
  have hw : ((cfg2.win 1).blk t).view.emb (brix y k) = rix (((cfg2.win 2).blk t).view.emb y) k := by
    funext a; apply Fin.ext
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega
  show xs V c (((cfg2.win 0).blk t).view.emb (blix y k)) * ws V c (((cfg2.win 1).blk t).view.emb (brix y k)) = _
  rw [hx, hw]

/-- An index of the result is in point `t`'s block iff each coordinate is in the block's range on its axis. -/
theorem mem_block (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- THE BLOCKS COVER THE ARRAY: row `r` lies in the block of the point whose row-block is `r / 10000`, and every
    column lies in the one column-block. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := every_row_block ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE RESULT ARRAY of the region: at every index the sum over the contraction of the products of the two
    input arrays as the region finds them. -/
theorem arr_eq (c : Dev nD) :
    (dat2 V c).arrAt 2 cfg2.N
      = (fun i => ∑ k : Fin 128, xs V c (lix i k) * ws V c (rix i k) : FVec Ideal S50000x128 .f32) :=
  (dat2 V c).arrAt_eq_of_cover 2 _ (fun t _ => flushed_eq V c t) cover

end Cert.KernelIdeal.Dense2

end
-- ==== Proof.Dense4.lean ====
/-
  The third dense transform, read as one array.

  The region runs over the 5 blocks of 10000 rows. At a block the body multiplies the block of `x` by the
  whole of `w` into a zero accumulator (the change of float format before the product is the identity on
  exact values), and writes the product back as the same block of rows of the result. So after the region
  the result array holds, at row `n` and column `j`, the sum over `k` of `x[n, k] * w[k, j]`: every row lies
  in exactly one block, and within a block the row's sum reads only that row of `x`.
-/
import proofs.«404155_j15109694947665_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Dense4

open Idealize.ShloMosaic Idealize.ShloMosaic.TcCoe Idealize.SL.Sem
open Cert.KernelIdeal Cert.KernelIdeal.Gen

/-! ## The body's product at an index

  The contraction runs over the one axis of length 128: axis 1 of the left operand, axis 0 of the right. The
  left operand's other axis (the row) and the right operand's other axis (the column) are the result's. -/

/-- The left operand's row is the result's row, -/
theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and its column is the contraction position. -/
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction position, -/
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- and its column is the result's column. -/
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Inside a block: row `j 0` of the block of `x`, at contraction position `k`. -/
abbrev blix (j : S10000x128.Idx) (k : Fin 128) : S10000x128.Idx := fun a => match a with
  | ⟨0, _⟩ => ⟨(j 0).val, (j 0).isLt⟩
  | ⟨1, _⟩ => ⟨k.val, k.isLt⟩
/-- Inside a block: column `j 1` of `w`, at contraction position `k`. -/
abbrev brix (j : S10000x128.Idx) (k : Fin 128) : S128x128.Idx := fun a => match a with
  | ⟨0, _⟩ => ⟨k.val, k.isLt⟩
  | ⟨1, _⟩ => ⟨(j 1).val, (j 1).isLt⟩

/-- THE BODY'S RESULT at an index of the block: the two changes of format are the identity on exact values, the
    accumulator is zero, so the entry is the plain sum over the contraction of the products of row `j 0` of the
    left block and column `j 1` of the right one. -/
theorem product_apply (x0 : Vec Ideal S10000x128 .bf16) (x1 : Vec Ideal S128x128 .f32) (j : S10000x128.Idx) :
    k4_pay1 (F := Ideal) x0 x1 j = ∑ k : Fin 128, x0 (blix j k) * x1 (brix j k) := by
  unfold k4_pay1
  rw [shapeCast_self]
  refine (Ideal.matmul_constant_zero_apply dot_S10000x128_S128x128_S10000x128_1_0_0_1_n_n none x0 (truncf .bf16 x1 bitsLt_bf16_f32) j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blix j k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx j ((ValueIdx.contrEquiv1 dot_S10000x128_S128x128_S10000x128_1_0_0_1_n_n 128 rfl rfl).symm k) = brix j k := funext fun a => Fin.ext (by
    match a with
    | ⟨0, _⟩ => exact (rhs_axis0 _ _).trans hk
    | ⟨1, _⟩ => exact rhs_axis1 _ _)
  rw [el, er]
  rfl

-- the TensorCore's buffer contents when the region is entered
variable (V : (c : Dev nD) → (b : Ref sig .tc) → Buf (Elt Ideal) ((c : Thread nD τ).loc b))

/-- The two input arrays as the region finds them, at their literal types. -/
abbrev xs (c : Dev nD) : FVec Ideal S50000x128 .bf16 := V c (Pipeline.arrRef spec4 0)
abbrev ws (c : Dev nD) : FVec Ideal S128x128 .f32 := V c (Pipeline.arrRef spec4 1)

/-- Row `i 0` of `x`, at contraction position `k`. -/
abbrev lix (i : S50000x128.Idx) (k : Fin 128) : S50000x128.Idx := fun a => match a with
  | ⟨0, _⟩ => ⟨(i 0).val, (i 0).isLt⟩
  | ⟨1, _⟩ => ⟨k.val, k.isLt⟩
/-- Column `i 1` of `w`, at contraction position `k`. -/
abbrev rix (i : S50000x128.Idx) (k : Fin 128) : S128x128.Idx := fun a => match a with
  | ⟨0, _⟩ => ⟨k.val, k.isLt⟩
  | ⟨1, _⟩ => ⟨(i 1).val, (i 1).isLt⟩

/-! ## From the blocks to the array

  The region's grid has 5 points. At point `t` the window over `x` and the window over the result both sit at
  block `(t, 0)` (10000 rows, all 128 columns); the window over `w` is the whole of `w` at every point. So row
  `r` of a block is row `t * 10000 + r` of the arrays, and the sum the body forms there reads that row of `x`
  and the whole of `w`. -/

theorem zero_origin : (![0, 0] : Fin 2 → Nat) = fun _ => 0 := funext fun a => by fin_cases a <;> rfl

/-- Where the three windows' blocks sit, decided over the 5 points: the block of `x` is in the same row-block as
    the result's and in column-block 0; the block of `w` is at the origin; the result's row-block is one of the 5
    and its column-block is 0. -/
theorem block_positions : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 4
    ∧ win4_2.index t (1 : Fin 2) = 0 :=
  (by decide +kernel : ∀ t : Fin grid4.N, _)

/-- Each of the 5 row-blocks of the result is some point's. -/
theorem every_row_block : ∀ b : Fin 5, ∃ t : Fin cfg4.N, win4_2.index t = ![b.val, 0] :=
  (by decide +kernel : ∀ b : Fin 5, ∃ t : Fin grid4.N, win4_2.index t = ![b.val, 0])

/-- WHAT POINT `t` WRITES BACK is block `t` of the product of the two arrays as the region finds them: the entry
    at row `r`, column `q` of the block is the sum over `k` of `x[t * 10000 + r, k] * w[k, q]`. -/
theorem flushed_eq (c : Dev nD) (t : Fin cfg4.N) :
    (dat4 V c).flushed 2 t = ((cfg4.win 2).blk t).view.read (Elt Ideal)
      (fun i => ∑ k : Fin 128, xs V c (lix i k) * ws V c (rix i k) : FVec Ideal S50000x128 .f32) := by
  show (cfg4.win 2).cut (grid4.coords t) ((dat4 V c).after 2 t) = _
  rw [after4_2]
  unfold out4_2
  rw [View.canon_unit_zero zero_origin]
  simp only [View.ld_unit_zero (S := S10000x128) zero_origin, View.ld_unit_zero (S := S128x128) zero_origin]
  obtain ⟨e0, e1, e2, e3, e4, e5⟩ := block_positions t
  funext y
  show k4_pay1 (F := Ideal) (iblk4 V c 0 t) (iblk4 V c 1 t) y
    = ∑ k : Fin 128, xs V c (lix (((cfg4.win 2).blk t).view.emb y) k) * ws V c (rix (((cfg4.win 2).blk t).view.emb y) k)
  refine (product_apply _ _ y).trans ?_
  refine Finset.sum_congr rfl fun k _ => ?_
  -- the row of `x` the block's row is
  have hx : ((cfg4.win 0).blk t).view.emb (blix y k) = lix (((cfg4.win 2).blk t).view.emb y) k := by
    funext a; apply Fin.ext
    match a with
    | ⟨0, _⟩ => show win4_0.index t (0 : Fin 2) * 10000 + 1 * (y 0).val = win4_2.index t (0 : Fin 2) * 10000 + 1 * (y 0).val; omega
    | ⟨1, _⟩ => show win4_0.index t (1 : Fin 2) * 128 + 1 * k.val = k.val; omega
  -- the column of `w` the block's column is
  have hw : ((cfg4.win 1).blk t).view.emb (brix y k) = rix (((cfg4.win 2).blk t).view.emb y) k := by
    funext a; apply Fin.ext
    match a with
    | ⟨0, _⟩ => show win4_1.index t (0 : Fin 2) * 128 + 1 * k.val = k.val; omega
    | ⟨1, _⟩ => show win4_1.index t (1 : Fin 2) * 128 + 1 * (y 1).val = win4_2.index t (1 : Fin 2) * 128 + 1 * (y 1).val; omega
  show xs V c (((cfg4.win 0).blk t).view.emb (blix y k)) * ws V c (((cfg4.win 1).blk t).view.emb (brix y k)) = _
  rw [hx, hw]

/-- An index of the result is in point `t`'s block iff each coordinate is in the block's range on its axis. -/
theorem mem_block (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v64).slice (win4_2.rect t)).set ↔ _
  rw [View.set_slice_whole, Rect.mem_set_unit]
  exact Iff.rfl

/-- THE BLOCKS COVER THE ARRAY: row `r` lies in the block of the point whose row-block is `r / 10000`, and every
    column lies in the one column-block. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := every_row_block ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- THE RESULT ARRAY of the region: at every index the sum over the contraction of the products of the two
    input arrays as the region finds them. -/
theorem arr_eq (c : Dev nD) :
    (dat4 V c).arrAt 2 cfg4.N
      = (fun i => ∑ k : Fin 128, xs V c (lix i k) * ws V c (rix i k) : FVec Ideal S50000x128 .f32) :=
  (dat4 V c).arrAt_eq_of_cover 2 _ (fun t _ => flushed_eq V c t) cover

end Cert.KernelIdeal.Dense4

end
-- ==== Proof.Bias1.lean ====
/-
  The first bias-and-rectifier step, read as one array.

  The region runs over the 5 blocks of 10000 rows. At a block the body adds the one bias row to every row
  of the block of the aggregate, takes the maximum with zero, and writes the block back (the change of
  float format on the way out is the identity on exact values). So after the region the result holds, at
  row `n` and column `j`, `max (agg[n, j] + b[0, j]) 0`: the step is pointwise and every row lies in
  exactly one block.
-/
import proofs.«404155_j15109694947665_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bias1

open Idealize.ShloMosaic Idealize.ShloMosaic.TcCoe Idealize.SL.Sem
open Cert.KernelIdeal Cert.KernelIdeal.Gen

open Idealize.ShloMosaic.ValueIdx

/-! ## The body's value at one entry of a block -/

/-- The store's and the loads' offsets are zero on both axes. -/
theorem zero_offsets : (![0, 0] : Fin 2 → Nat) = fun _ => 0 := funext fun a => by fin_cases a <;> rfl

/-- At row `p` and column `q` of a block the body's value is the block's entry plus the bias row's entry of
    column `q`, cut off below at zero: the two casts keep their shapes, the bias row is repeated down the rows, the
    zero word is the number zero, and the change of format keeps an exact value. -/
theorem pay_entry (xagg : Vec Ideal S10000x128 .f32) (xrow : Vec Ideal S1x128 .f32) (p : Fin 10000) (q : Fin 128) :
    k1_pay1 xagg xrow (ix2 p q) = max (xagg (ix2 p q) + xrow (ix2 (0 : Fin 1) q)) (0 : EReal) := by
  unfold k1_pay1
  rw [truncf_apply, maximumf_apply, addf_apply, broadcast_apply, shapeCast_self, shapeCast_self,
    broadcastTo_1b_ab_apply]
  show max (xagg (ix2 p q) + xrow (ix2 (0 : Fin 1) q)) (Ideal.ofBits .f32 0x00000000#32) = _
  rw [Ideal.ofBits_zero_f32]

/-- The same at any index of the block, its column read off the index. -/
theorem pay_at (xagg : Vec Ideal S10000x128 .f32) (xrow : Vec Ideal S1x128 .f32) (j : S10000x128.Idx) :
    k1_pay1 xagg xrow j = max (xagg j + xrow (ix2 (0 : Fin 1) ⟨(j 1).val, (j 1).isLt⟩)) (0 : EReal) := by
  obtain ⟨p, q, rfl⟩ : ∃ (p : Fin 10000) (q : Fin 128), j = ix2 p q := ⟨j 0, j 1, eq_ix2 j⟩
  exact pay_entry xagg xrow p q

-- the TensorCore's buffer contents when the region is entered
variable (V : (c : Dev nD) → (b : Ref sig .tc) → Buf (Elt Ideal) ((c : Thread nD τ).loc b))

/-- The aggregate and the bias row as the region finds them, at their literal types. -/
abbrev agg (c : Dev nD) : FVec Ideal S50000x128 .f32 := V c (Pipeline.arrRef spec1 0)
abbrev brow (c : Dev nD) : FVec Ideal S1x128 .f32 := V c (Pipeline.arrRef spec1 1)

/-- The bias row's entry for column `i 1`. -/
abbrev bix (i : S50000x128.Idx) : S1x128.Idx := ix2 (0 : Fin 1) ⟨(i 1).val, (i 1).isLt⟩

/-! ## From the blocks to the array -/

/-- The block indices over the grid: at point `t` the aggregate's and the result's windows sit at block row `t`,
    block column 0, and the bias row's window at its one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole-array function: an entry of the aggregate's block and of
    the result's block sit at the same place of their arrays, and the bias row's block is the whole row. -/
theorem flushed_eq (c : Dev nD) (t : Fin cfg1.N) :
    (dat1 V c).flushed 2 t
      = ((cfg1.win 2).blk t).view.read (Elt Ideal)
          (fun i => max (agg V c i + brow V c (bix i)) (0 : EReal) : FVec Ideal S50000x128 .bf16) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨ea, eb, ec, ed, ee, ef⟩ := block_indices t
  funext y
  show k1_pay1 (iblk1 V c 0 t) (iblk1 V c 1 t) y
    = max (agg V c (((cfg1.win 2).blk t).view.emb y) + brow V c (bix (((cfg1.win 2).blk t).view.emb y))) (0 : EReal)
  refine (pay_at _ _ y).trans ?_
  have hagg : iblk1 V c 0 t y = agg V c (((cfg1.win 2).blk t).view.emb y) := by
    show V c (Pipeline.arrRef spec1 0) (((cfg1.win 0).blk t).view.emb y)
      = V c (Pipeline.arrRef spec1 0) (((cfg1.win 2).blk t).view.emb y)
    refine congrArg _ ?_
    funext a; apply Fin.ext
    match a with
    | ⟨0, _⟩ =>
      show win1_0.index t (0 : Fin 2) * 10000 + 1 * (y 0).val = win1_2.index t (0 : Fin 2) * 10000 + 1 * (y 0).val
      omega
    | ⟨1, _⟩ =>
      show win1_0.index t (1 : Fin 2) * 128 + 1 * (y 1).val = win1_2.index t (1 : Fin 2) * 128 + 1 * (y 1).val
      omega
  have hrow : iblk1 V c 1 t (ix2 (0 : Fin 1) ⟨(y 1).val, (y 1).isLt⟩)
      = brow V c (bix (((cfg1.win 2).blk t).view.emb y)) := by
    show V c (Pipeline.arrRef spec1 1) (((cfg1.win 1).blk t).view.emb (ix2 (0 : Fin 1) ⟨(y 1).val, (y 1).isLt⟩))
      = V c (Pipeline.arrRef spec1 1) (bix (((cfg1.win 2).blk t).view.emb y))
    refine congrArg _ ?_
    funext a; apply Fin.ext
    match a with
    | ⟨0, _⟩ =>
      show win1_1.index t (0 : Fin 2) * 1 + 1 * 0 = 0
      omega
    | ⟨1, _⟩ =>
      show win1_1.index t (1 : Fin 2) * 128 + 1 * (y 1).val = win1_2.index t (1 : Fin 2) * 128 + 1 * (y 1).val
      omega
  rw [hagg, hrow]

/-- An index of the array is in point `t`'s block iff each coordinate is in the block's range on its axis. -/
theorem mem_blk (t : Fin cfg1.N) (i : S50000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- Every row lies in a block: row `r` in the block of point `r / 10000`. -/
theorem cover (i : S50000x128.Idx) :
    ∃ t : Fin cfg1.N, (cfg1.win 2).flush t = true ∧ i ∈ ((cfg1.win 2).blk t).view.set := by
  have hrow : (i 0).val < 50000 := (i 0).isLt
  have hcol : (i 1).val < 128 := (i 1).isLt
  have hN : grid1.N = 5 := N_1
  let t : Fin cfg1.N := ⟨(i 0).val / 10000, by show (i 0).val / 10000 < grid1.N; omega⟩
  obtain ⟨ea, eb, ec, ed, ee, ef⟩ := block_indices t
  have ht : t.val = (i 0).val / 10000 := rfl
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE RESULT ARRAY of the region: at every index the aggregate plus the bias of its column, cut off below at zero. -/
theorem arr_eq (c : Dev nD) :
    (dat1 V c).arrAt 2 cfg1.N
      = (fun i => max (agg V c i + brow V c (bix i)) (0 : EReal) : FVec Ideal S50000x128 .bf16) :=
  (dat1 V c).arrAt_eq_of_cover 2 _ (fun t _ => flushed_eq V c t) cover

end Cert.KernelIdeal.Bias1

end
-- ==== Proof.Bias3.lean ====
/-
  The second bias-and-rectifier step, read as one array.

  The region runs over the 5 blocks of 10000 rows. At a block the body adds the one bias row to every row
  of the block of the aggregate, takes the maximum with zero, and writes the block back (the change of
  float format on the way out is the identity on exact values). So after the region the result holds, at
  row `n` and column `j`, `max (agg[n, j] + b[0, j]) 0`: the step is pointwise and every row lies in
  exactly one block.
-/
import proofs.«404155_j15109694947665_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bias3

open Idealize.ShloMosaic Idealize.ShloMosaic.TcCoe Idealize.SL.Sem
open Cert.KernelIdeal Cert.KernelIdeal.Gen

open Idealize.ShloMosaic.ValueIdx

/-! ## The body's value at one entry of a block -/

/-- The store's and the loads' offsets are zero on both axes. -/
theorem zero_offsets : (![0, 0] : Fin 2 → Nat) = fun _ => 0 := funext fun a => by fin_cases a <;> rfl

/-- At row `p` and column `q` of a block the body's value is the block's entry plus the bias row's entry of
    column `q`, cut off below at zero: the two casts keep their shapes, the bias row is repeated down the rows, the
    zero word is the number zero, and the change of format keeps an exact value. -/
theorem pay_entry (xagg : Vec Ideal S10000x128 .f32) (xrow : Vec Ideal S1x128 .f32) (p : Fin 10000) (q : Fin 128) :
    k3_pay1 xagg xrow (ix2 p q) = max (xagg (ix2 p q) + xrow (ix2 (0 : Fin 1) q)) (0 : EReal) := by
  unfold k3_pay1
  rw [truncf_apply, maximumf_apply, addf_apply, broadcast_apply, shapeCast_self, shapeCast_self,
    broadcastTo_1b_ab_apply]
  show max (xagg (ix2 p q) + xrow (ix2 (0 : Fin 1) q)) (Ideal.ofBits .f32 0x00000000#32) = _
  rw [Ideal.ofBits_zero_f32]

/-- The same at any index of the block, its column read off the index. -/
theorem pay_at (xagg : Vec Ideal S10000x128 .f32) (xrow : Vec Ideal S1x128 .f32) (j : S10000x128.Idx) :
    k3_pay1 xagg xrow j = max (xagg j + xrow (ix2 (0 : Fin 1) ⟨(j 1).val, (j 1).isLt⟩)) (0 : EReal) := by
  obtain ⟨p, q, rfl⟩ : ∃ (p : Fin 10000) (q : Fin 128), j = ix2 p q := ⟨j 0, j 1, eq_ix2 j⟩
  exact pay_entry xagg xrow p q

-- the TensorCore's buffer contents when the region is entered
variable (V : (c : Dev nD) → (b : Ref sig .tc) → Buf (Elt Ideal) ((c : Thread nD τ).loc b))

/-- The aggregate and the bias row as the region finds them, at their literal types. -/
abbrev agg (c : Dev nD) : FVec Ideal S50000x128 .f32 := V c (Pipeline.arrRef spec3 0)
abbrev brow (c : Dev nD) : FVec Ideal S1x128 .f32 := V c (Pipeline.arrRef spec3 1)

/-- The bias row's entry for column `i 1`. -/
abbrev bix (i : S50000x128.Idx) : S1x128.Idx := ix2 (0 : Fin 1) ⟨(i 1).val, (i 1).isLt⟩

/-! ## From the blocks to the array -/

/-- The block indices over the grid: at point `t` the aggregate's and the result's windows sit at block row `t`,
    block column 0, and the bias row's window at its one block. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the whole-array function: an entry of the aggregate's block and of
    the result's block sit at the same place of their arrays, and the bias row's block is the whole row. -/
theorem flushed_eq (c : Dev nD) (t : Fin cfg3.N) :
    (dat3 V c).flushed 2 t
      = ((cfg3.win 2).blk t).view.read (Elt Ideal)
          (fun i => max (agg V c i + brow V c (bix i)) (0 : EReal) : FVec Ideal S50000x128 .bf16) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨ea, eb, ec, ed, ee, ef⟩ := block_indices t
  funext y
  show k3_pay1 (iblk3 V c 0 t) (iblk3 V c 1 t) y
    = max (agg V c (((cfg3.win 2).blk t).view.emb y) + brow V c (bix (((cfg3.win 2).blk t).view.emb y))) (0 : EReal)
  refine (pay_at _ _ y).trans ?_
  have hagg : iblk3 V c 0 t y = agg V c (((cfg3.win 2).blk t).view.emb y) := by
    show V c (Pipeline.arrRef spec3 0) (((cfg3.win 0).blk t).view.emb y)
      = V c (Pipeline.arrRef spec3 0) (((cfg3.win 2).blk t).view.emb y)
    refine congrArg _ ?_
    funext a; apply Fin.ext
    match a with
    | ⟨0, _⟩ =>
      show win3_0.index t (0 : Fin 2) * 10000 + 1 * (y 0).val = win3_2.index t (0 : Fin 2) * 10000 + 1 * (y 0).val
      omega
    | ⟨1, _⟩ =>
      show win3_0.index t (1 : Fin 2) * 128 + 1 * (y 1).val = win3_2.index t (1 : Fin 2) * 128 + 1 * (y 1).val
      omega
  have hrow : iblk3 V c 1 t (ix2 (0 : Fin 1) ⟨(y 1).val, (y 1).isLt⟩)
      = brow V c (bix (((cfg3.win 2).blk t).view.emb y)) := by
    show V c (Pipeline.arrRef spec3 1) (((cfg3.win 1).blk t).view.emb (ix2 (0 : Fin 1) ⟨(y 1).val, (y 1).isLt⟩))
      = V c (Pipeline.arrRef spec3 1) (bix (((cfg3.win 2).blk t).view.emb y))
    refine congrArg _ ?_
    funext a; apply Fin.ext
    match a with
    | ⟨0, _⟩ =>
      show win3_1.index t (0 : Fin 2) * 1 + 1 * 0 = 0
      omega
    | ⟨1, _⟩ =>
      show win3_1.index t (1 : Fin 2) * 128 + 1 * (y 1).val = win3_2.index t (1 : Fin 2) * 128 + 1 * (y 1).val
      omega
  rw [hagg, hrow]

/-- An index of the array is in point `t`'s block iff each coordinate is in the block's range on its axis. -/
theorem mem_blk (t : Fin cfg3.N) (i : S50000x128.Idx) :
    i ∈ ((cfg3.win 2).blk t).view.set
      ↔ ∀ a : Fin 2, win3_2.index t a * S10000x128.size a ≤ (i a).val
          ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- Every row lies in a block: row `r` in the block of point `r / 10000`. -/
theorem cover (i : S50000x128.Idx) :
    ∃ t : Fin cfg3.N, (cfg3.win 2).flush t = true ∧ i ∈ ((cfg3.win 2).blk t).view.set := by
  have hrow : (i 0).val < 50000 := (i 0).isLt
  have hcol : (i 1).val < 128 := (i 1).isLt
  have hN : grid3.N = 5 := N_3
  let t : Fin cfg3.N := ⟨(i 0).val / 10000, by show (i 0).val / 10000 < grid3.N; omega⟩
  obtain ⟨ea, eb, ec, ed, ee, ef⟩ := block_indices t
  have ht : t.val = (i 0).val / 10000 := rfl
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- THE RESULT ARRAY of the region: at every index the aggregate plus the bias of its column, cut off below at zero. -/
theorem arr_eq (c : Dev nD) :
    (dat3 V c).arrAt 2 cfg3.N
      = (fun i => max (agg V c i + brow V c (bix i)) (0 : EReal) : FVec Ideal S50000x128 .bf16) :=
  (dat3 V c).arrAt_eq_of_cover 2 _ (fun t _ => flushed_eq V c t) cover

end Cert.KernelIdeal.Bias3

end
-- ==== Proof.Bias5.lean ====
/-
  The third bias-and-rectifier step, read as one array.

  The region runs over the 5 blocks of 10000 rows. At a block the body adds the one bias row to every row
  of the block of the aggregate, takes the maximum with zero, and writes the block back (the change of
  float format on the way out is the identity on exact values). So after the region the result holds, at
  row `n` and column `j`, `max (agg[n, j] + b[0, j]) 0`: the step is pointwise and every row lies in
  exactly one block.
-/
import proofs.«404155_j15109694947665_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bias5

open Idealize.ShloMosaic Idealize.ShloMosaic.TcCoe Idealize.SL.Sem
open Cert.KernelIdeal Cert.KernelIdeal.Gen

open Idealize.ShloMosaic.ValueIdx

/-! ## The body's value at one entry of a block -/

/-- The store's and the loads' offsets are zero on both axes. -/
theorem zero_offsets : (![0, 0] : Fin 2 → Nat) = fun _ => 0 := funext fun a => by fin_cases a <;> rfl

/-- At row `p` and column `q` of a block the body's value is the block's entry plus the bias row's entry of
    column `q`, cut off below at zero: the two casts keep their shapes, the bias row is repeated down the rows, the
    zero word is the number zero, and the change of format keeps an exact value. -/
theorem pay_entry (xagg : Vec Ideal S10000x128 .f32) (xrow : Vec Ideal S1x128 .f32) (p : Fin 10000) (q : Fin 128) :
    k5_pay1 xagg xrow (ix2 p q) = max (xagg (ix2 p q) + xrow (ix2 (0 : Fin 1) q)) (0 : EReal) := by
  unfold k5_pay1
  rw [truncf_apply, maximumf_apply, addf_apply, broadcast_apply, shapeCast_self, shapeCast_self,
    broadcastTo_1b_ab_apply]
  show max (xagg (ix2 p q) + xrow (ix2 (0 : Fin 1) q)) (Ideal.ofBits .f32 0x00000000#32) = _
  rw [Ideal.ofBits_zero_f32]

/-- The same at any index of the block, its column read off the index. -/
theorem pay_at (xagg : Vec Ideal S10000x128 .f32) (xrow : Vec Ideal S1x128 .f32) (j : S10000x128.Idx) :
    k5_pay1 xagg xrow j = max (xagg j + xrow (ix2 (0 : Fin 1) ⟨(j 1).val, (j 1).isLt⟩)) (0 : EReal) := by
  obtain ⟨p, q, rfl⟩ : ∃ (p : Fin 10000) (q : Fin 128), j = ix2 p q := ⟨j 0, j 1, eq_ix2 j⟩
  exact pay_entry xagg xrow p q

-- the TensorCore's buffer contents when the region is entered
variable (V : (c : Dev nD) → (b : Ref sig .tc) → Buf (Elt Ideal) ((c : Thread nD τ).loc b))

/-- The aggregate and the bias row as the region finds them, at their literal types. -/
abbrev agg (c : Dev nD) : FVec Ideal S50000x128 .f32 := V c (Pipeline.arrRef spec5 0)
abbrev brow (c : Dev nD) : FVec Ideal S1x128 .f32 := V c (Pipeline.arrRef spec5 1)

/-- The bias row's entry for column `i 1`. -/
abbrev bix (i : S50000x128.Idx) : S1x128.Idx := ix2 (0 : Fin 1) ⟨(i 1).val, (i 1).isLt⟩

/-! ## From the blocks to the array -/

/-- The block indices over the grid: at point `t` the aggregate's and the result's windows sit at block row `t`,
    block column 0, and the bias row's window at its one block. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the whole-array function: an entry of the aggregate's block and of
    the result's block sit at the same place of their arrays, and the bias row's block is the whole row. -/
theorem flushed_eq (c : Dev nD) (t : Fin cfg5.N) :
    (dat5 V c).flushed 2 t
      = ((cfg5.win 2).blk t).view.read (Elt Ideal)
          (fun i => max (agg V c i + brow V c (bix i)) (0 : EReal) : FVec Ideal S50000x128 .bf16) := by
  show (cfg5.win 2).cut (grid5.coords t) ((dat5 V c).after 2 t) = _
  rw [after5_2]
  unfold out5_2
  rw [View.canon_unit_zero zero_offsets]
  simp only [View.ld_unit_zero (S := S10000x128) zero_offsets, View.ld_unit_zero (S := S1x128) zero_offsets]
  obtain ⟨ea, eb, ec, ed, ee, ef⟩ := block_indices t
  funext y
  show k5_pay1 (iblk5 V c 0 t) (iblk5 V c 1 t) y
    = max (agg V c (((cfg5.win 2).blk t).view.emb y) + brow V c (bix (((cfg5.win 2).blk t).view.emb y))) (0 : EReal)
  refine (pay_at _ _ y).trans ?_
  have hagg : iblk5 V c 0 t y = agg V c (((cfg5.win 2).blk t).view.emb y) := by
    show V c (Pipeline.arrRef spec5 0) (((cfg5.win 0).blk t).view.emb y)
      = V c (Pipeline.arrRef spec5 0) (((cfg5.win 2).blk t).view.emb y)
    refine congrArg _ ?_
    funext a; apply Fin.ext
    match a with
    | ⟨0, _⟩ =>
      show win5_0.index t (0 : Fin 2) * 10000 + 1 * (y 0).val = win5_2.index t (0 : Fin 2) * 10000 + 1 * (y 0).val
      omega
    | ⟨1, _⟩ =>
      show win5_0.index t (1 : Fin 2) * 128 + 1 * (y 1).val = win5_2.index t (1 : Fin 2) * 128 + 1 * (y 1).val
      omega
  have hrow : iblk5 V c 1 t (ix2 (0 : Fin 1) ⟨(y 1).val, (y 1).isLt⟩)
      = brow V c (bix (((cfg5.win 2).blk t).view.emb y)) := by
    show V c (Pipeline.arrRef spec5 1) (((cfg5.win 1).blk t).view.emb (ix2 (0 : Fin 1) ⟨(y 1).val, (y 1).isLt⟩))
      = V c (Pipeline.arrRef spec5 1) (bix (((cfg5.win 2).blk t).view.emb y))
    refine congrArg _ ?_
    funext a; apply Fin.ext
    match a with
    | ⟨0, _⟩ =>
      show win5_1.index t (0 : Fin 2) * 1 + 1 * 0 = 0
      omega
    | ⟨1, _⟩ =>
      show win5_1.index t (1 : Fin 2) * 128 + 1 * (y 1).val = win5_2.index t (1 : Fin 2) * 128 + 1 * (y 1).val
      omega
  rw [hagg, hrow]

/-- An index of the array is in point `t`'s block iff each coordinate is in the block's range on its axis. -/
theorem mem_blk (t : Fin cfg5.N) (i : S50000x128.Idx) :
    i ∈ ((cfg5.win 2).blk t).view.set
      ↔ ∀ a : Fin 2, win5_2.index t a * S10000x128.size a ≤ (i a).val
          ∧ (i a).val < win5_2.index t a * S10000x128.size a + S10000x128.size a := by
  show i ∈ ((View.whole (Pipeline.arrRef spec5 2)).slice (win5_2.rect t)).set ↔ _
  rw [View.set_slice_whole, Rect.mem_set_unit]
  exact Iff.rfl

/-- Every row lies in a block: row `r` in the block of point `r / 10000`. -/
theorem cover (i : S50000x128.Idx) :
    ∃ t : Fin cfg5.N, (cfg5.win 2).flush t = true ∧ i ∈ ((cfg5.win 2).blk t).view.set := by
  have hrow : (i 0).val < 50000 := (i 0).isLt
  have hcol : (i 1).val < 128 := (i 1).isLt
  have hN : grid5.N = 5 := N_5
  let t : Fin cfg5.N := ⟨(i 0).val / 10000, by show (i 0).val / 10000 < grid5.N; omega⟩
  obtain ⟨ea, eb, ec, ed, ee, ef⟩ := block_indices t
  have ht : t.val = (i 0).val / 10000 := rfl
  refine ⟨t, flush5_2 t, ?_⟩
  rw [mem_blk]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 128 ≤ (i 1).val ∧ (i 1).val < win5_2.index t (1 : Fin 2) * 128 + 128
    omega

/-- THE RESULT ARRAY of the region: at every index the aggregate plus the bias of its column, cut off below at zero. -/
theorem arr_eq (c : Dev nD) :
    (dat5 V c).arrAt 2 cfg5.N
      = (fun i => max (agg V c i + brow V c (bix i)) (0 : EReal) : FVec Ideal S50000x128 .bf16) :=
  (dat5 V c).arrAt_eq_of_cover 2 _ (fun t _ => flushed_eq V c t) cover

end Cert.KernelIdeal.Bias5

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Pool6.lean ====
/-
  The pooling numerator, read as one array.

  The region runs over the 5 blocks of 10000 rows, and its one output block (all 64 x 128 entries) is
  carried from point to point. At the first point the body clears the block; at every point it adds to
  the block the product of the transposed block of the membership table with the block of the features:
  entry `(g, h)` gains the sum over the block's rows `n` of `t[n, g] * f[n, h]`. After the last point the
  block, and so the result array, holds at `(g, h)` the sum of the five partial sums, which is the sum
  over all 50000 rows: a sum over 5 * 10000 indices taken block by block, and `0 + a = a`.
-/
import proofs.«404155_j15109694947665_1_alg».proof.Proof.Gen.KernelIdeal.Frame
import Idealize.ShloMosaic.Lib.ValueIdx
import Idealize.ShloMosaic.Lib.Pipeline.Value
import Idealize.ShloMosaic.PureOps.Ideal.Laws
import proofs.«404155_j15109694947665_1_alg».proof.Proof.LibSums

set_option maxRecDepth 16384

noncomputable section

namespace Cert.KernelIdeal.Pool6

open Idealize.ShloMosaic Idealize.ShloMosaic.TcCoe Idealize.SL.Sem
open Cert.KernelIdeal Cert.KernelIdeal.Gen

-- the TensorCore's buffer contents when the region is entered
variable (V : (c : Dev nD) → (b : Ref sig .tc) → Buf (Elt Ideal) ((c : Thread nD τ).loc b))

/-- The membership table and the features as the region finds them, at their literal types. -/
abbrev tbl (c : Dev nD) : FVec Ideal S50000x64 .bf16 := V c (Pipeline.arrRef spec6 0)
abbrev feat (c : Dev nD) : FVec Ideal S50000x128 .bf16 := V c (Pipeline.arrRef spec6 1)

/-- Row `n` of the membership table, at segment `i 0`. -/
abbrev tix (i : S64x128.Idx) (n : Fin 50000) : S50000x64.Idx := fun a => match a with
  | ⟨0, _⟩ => ⟨n.val, n.isLt⟩
  | ⟨1, _⟩ => ⟨(i 0).val, (i 0).isLt⟩
/-- Row `n` of the features, at column `i 1`. -/
abbrev fix (i : S64x128.Idx) (n : Fin 50000) : S50000x128.Idx := fun a => match a with
  | ⟨0, _⟩ => ⟨n.val, n.isLt⟩
  | ⟨1, _⟩ => ⟨(i 1).val, (i 1).isLt⟩

/-! ## What each control case leaves in the block -/

/-- The zero offsets of a whole-block access. -/
theorem hz : (![0, 0] : Fin 2 → Nat) = fun _ => 0 := funext fun a => by fin_cases a <;> rfl

/-- A point other than the first: the block holding `xo` is left holding `xo` plus the product of the two input
    blocks (the one store covers the block, and its operands are the three whole buffers). -/
theorem out_B {F : FTy → Type} [FloatOps F] (c : Dev nD) (i : grid6.Coords)
    (a1 : Memref sig .tc .vmem S10000x64 .bf16) (h1 : a1.IsWhole)
    (a2 : Memref sig .tc .vmem S10000x128 .bf16) (h2 : a2.IsWhole)
    (a3 : Memref sig .tc .vmem S64x128 .f32) (h3 : a3.IsWhole) (hc : ¬cond6_0 i)
    (x0 : Vec F S10000x64 .bf16) (x1 : Vec F S10000x128 .bf16) (xo : Vec F S64x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread,
    View.ld_unit_zero (S := S10000x64) hz, View.ld_unit_zero (S := S10000x128) hz, View.ld_unit_zero (S := S64x128) hz]

/-- The first point: the block is cleared, read back, and left holding zero plus the product of the two input
    blocks. -/
theorem out_A {F : FTy → Type} [FloatOps F] (c : Dev nD) (i : grid6.Coords)
    (a1 : Memref sig .tc .vmem S10000x64 .bf16) (h1 : a1.IsWhole)
    (a2 : Memref sig .tc .vmem S10000x128 .bf16) (h2 : a2.IsWhole)
    (a3 : Memref sig .tc .vmem S64x128 .f32) (h3 : a3.IsWhole) (hc : cond6_0 i)
    (x0 : Vec F S10000x64 .bf16) (x1 : Vec F S10000x128 .bf16) :
    out6_A_2 c i a1 h1 a2 h2 a3 h3 hc x0 x1 = k6_pay2 x0 x1 k6_pay1 := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) hz, View.readCov_unit_zero (S := S64x128) _ hz]
  simp only [View.readAt_eq_ld, h1.read_unread, h2.read_unread,
    View.ld_unit_zero (S := S10000x64) hz, View.ld_unit_zero (S := S10000x128) hz, View.ld_unit_zero (S := S64x128) hz]

/-! ## The update at an entry -/

/-- The product's operand indices. Both operands are contracted on their row axis, so at the result's entry `j` and
    the contraction position `q` the left operand is read at `(q, j 0)` and the right one at `(q, j 1)`. -/
theorem lhs_0 (j : S64x128.Idx) (q : dot_S10000x64_S10000x128_S64x128_0_0_1_1_n_n.contr.Idx) :
    (dot_S10000x64_S10000x128_S64x128_0_0_1_1_n_n.lhsIdx j q 0).val = (q ⟨0, by decide⟩).val :=
  dot_S10000x64_S10000x128_S64x128_0_0_1_1_n_n.lhsIdx_val_of_single rfl j q
theorem lhs_1 (j : S64x128.Idx) (q : dot_S10000x64_S10000x128_S64x128_0_0_1_1_n_n.contr.Idx) :
    (dot_S10000x64_S10000x128_S64x128_0_0_1_1_n_n.lhsIdx j q 1).val = (j 0).val := by
  unfold DotDims.lhsIdx
  rw [dif_neg (show ¬(1 : Fin S10000x64.rank) ∈ dot_S10000x64_S10000x128_S64x128_0_0_1_1_n_n.lhsBatch by decide),
    dif_pos (show (1 : Fin S10000x64.rank) ∈ dot_S10000x64_S10000x128_S64x128_0_0_1_1_n_n.lhsNonContracting by decide)]
  rfl
theorem rhs_0 (j : S64x128.Idx) (q : dot_S10000x64_S10000x128_S64x128_0_0_1_1_n_n.contr.Idx) :
    (dot_S10000x64_S10000x128_S64x128_0_0_1_1_n_n.rhsIdx j q 0).val = (q ⟨0, by decide⟩).val :=
  dot_S10000x64_S10000x128_S64x128_0_0_1_1_n_n.rhsIdx_val_of_single rfl j q
theorem rhs_1 (j : S64x128.Idx) (q : dot_S10000x64_S10000x128_S64x128_0_0_1_1_n_n.contr.Idx) :
    (dot_S10000x64_S10000x128_S64x128_0_0_1_1_n_n.rhsIdx j q 1).val = (j 1).val := by
  unfold DotDims.rhsIdx
  rw [dif_neg (show ¬(1 : Fin S10000x128.rank) ∈ dot_S10000x64_S10000x128_S64x128_0_0_1_1_n_n.rhsBatch by decide),
    dif_pos (show (1 : Fin S10000x128.rank) ∈ dot_S10000x64_S10000x128_S64x128_0_0_1_1_n_n.rhsNonContracting by decide)]
  rfl

open ValueIdx in
/-- The product of a block of the table, contracted over its rows, with a block of the features, at the entry
    `(g, h)`: the sum over the block's rows `n` of `x0[n, g] * x1[n, h]` (the accumulator passed in is zero). -/
theorem dot_apply (x0 : FVec Ideal S10000x64 .bf16) (x1 : FVec Ideal S10000x128 .bf16) (g : Fin 64) (h : Fin 128) :
    (matmul dot_S10000x64_S10000x128_S64x128_0_0_1_1_n_n none x0 x1 (constant S64x128 .f32 0x00000000#32)
        : FVec Ideal S64x128 .f32) (ix2 g h)
      = ∑ n : Fin 10000, x0 (ix2 n g) * x1 (ix2 n h) := by
  refine (Ideal.matmul_constant_zero_apply dot_S10000x64_S10000x128_S64x128_0_0_1_1_n_n none x0 x1 (ix2 g h)).trans ?_
  rw [← Equiv.sum_comp (contrEquiv1 dot_S10000x64_S10000x128_S64x128_0_0_1_1_n_n 10000 rfl rfl).symm]
  refine Finset.sum_congr rfl fun n _ => ?_
  have hn := contrEquiv1_symm_val dot_S10000x64_S10000x128_S64x128_0_0_1_1_n_n 10000 rfl rfl n
  have el : dot_S10000x64_S10000x128_S64x128_0_0_1_1_n_n.lhsIdx (ix2 g h)
      ((contrEquiv1 dot_S10000x64_S10000x128_S64x128_0_0_1_1_n_n 10000 rfl rfl).symm n) = ix2 n g :=
    funext fun a => Fin.ext (by
      match a with
      | ⟨0, _⟩ => exact (lhs_0 _ _).trans hn
      | ⟨1, _⟩ => exact lhs_1 _ _)
  have er : dot_S10000x64_S10000x128_S64x128_0_0_1_1_n_n.rhsIdx (ix2 g h)
      ((contrEquiv1 dot_S10000x64_S10000x128_S64x128_0_0_1_1_n_n 10000 rfl rfl).symm n) = ix2 n h :=
    funext fun a => Fin.ext (by
      match a with
      | ⟨0, _⟩ => exact (rhs_0 _ _).trans hn
      | ⟨1, _⟩ => exact rhs_1 _ _)
  rw [el, er]

open ValueIdx in
/-- The update at the entry `(g, h)`: what the block held there plus the product's entry. -/
theorem pay2_apply (x0 : Vec Ideal S10000x64 .bf16) (x1 : Vec Ideal S10000x128 .bf16) (xo : Vec Ideal S64x128 .f32)
    (g : Fin 64) (h : Fin 128) :
    k6_pay2 (F := Ideal) x0 x1 xo (ix2 g h) = xo (ix2 g h) + ∑ n : Fin 10000, x0 (ix2 n g) * x1 (ix2 n h) := by
  unfold k6_pay2
  refine (addf_apply _ _ (ix2 g h)).trans ?_
  rw [shapeCast_self, shapeCast_self, shapeCast_self]
  exact congrArg (xo (ix2 g h) + ·) (dot_apply x0 x1 g h)

/-- The cleared block holds zero at every entry. -/
theorem pay1_apply (i : S64x128.Idx) : k6_pay1 (F := Ideal) i = 0 := by
  show Ideal.ofBits .f32 0x00000000#32 = 0
  exact Ideal.ofBits_zero_f32

/-! ## The input blocks, read off their arrays -/

/-- The table's and the features' blocks at a point, at their literal types. -/
abbrev tblk (c : Dev nD) (t : Fin cfg6.N) : Vec Ideal S10000x64 .bf16 := iblk6 V c 0 t
abbrev fblk (c : Dev nD) (t : Fin cfg6.N) : Vec Ideal S10000x128 .bf16 := iblk6 V c 1 t

/-- A row of block `t` is a row of the array. -/
theorem row_lt (t : Fin cfg6.N) (s : Fin 10000) : t.val * 10000 + s.val < 50000 := by
  have hN : t.val < 5 := lt_of_lt_of_eq t.isLt (show cfg6.N = 5 from N_6)
  omega

/-- Both input windows put block `t` at block index `(t, 0)`. -/
theorem index6_0 : ∀ t : Fin cfg6.N, win6_0.index t 0 = t.val ∧ win6_0.index t 1 = 0 :=
  (by decide +kernel : ∀ t : Fin grid6.N, win6_0.index t 0 = t.val ∧ win6_0.index t 1 = 0)
theorem index6_1 : ∀ t : Fin cfg6.N, win6_1.index t 0 = t.val ∧ win6_1.index t 1 = 0 :=
  (by decide +kernel : ∀ t : Fin grid6.N, win6_1.index t 0 = t.val ∧ win6_1.index t 1 = 0)

open ValueIdx in
/-- Row `s` of the table's block `t` is row `10000 t + s` of the table. -/
theorem tblk_apply (c : Dev nD) (t : Fin cfg6.N) (s : Fin 10000) (g : Fin 64) :
    tblk V c t (ix2 s g) = tbl V c (ix2 ⟨t.val * 10000 + s.val, row_lt t s⟩ g) := by
  have hi := index6_0 t
  show iblk6 V c 0 t (ix2 s g) = _
  unfold iblk6
  rw [View.read_apply]
  show V c (Pipeline.arrRef spec6 0) _ = V c (Pipeline.arrRef spec6 0) _
  congr 1
  funext a
  apply Fin.ext
  match a with
  | ⟨0, _⟩ =>
    show win6_0.index t 0 * 10000 + 1 * s.val = t.val * 10000 + s.val
    rw [hi.1]; omega
  | ⟨1, _⟩ =>
    show win6_0.index t 1 * 64 + 1 * g.val = g.val
    rw [hi.2]; omega

open ValueIdx in
/-- Row `s` of the features' block `t` is row `10000 t + s` of the features. -/
theorem fblk_apply (c : Dev nD) (t : Fin cfg6.N) (s : Fin 10000) (l : Fin 128) :
    fblk V c t (ix2 s l) = feat V c (ix2 ⟨t.val * 10000 + s.val, row_lt t s⟩ l) := by
  have hi := index6_1 t
  show iblk6 V c 1 t (ix2 s l) = _
  unfold iblk6
  rw [View.read_apply]
  show V c (Pipeline.arrRef spec6 1) _ = V c (Pipeline.arrRef spec6 1) _
  congr 1
  funext a
  apply Fin.ext
  match a with
  | ⟨0, _⟩ =>
    show win6_1.index t 0 * 10000 + 1 * s.val = t.val * 10000 + s.val
    rw [hi.1]; omega
  | ⟨1, _⟩ =>
    show win6_1.index t 1 * 128 + 1 * l.val = l.val
    rw [hi.2]; omega

/-! ## The block after each point -/

open ValueIdx in
/-- What block `b` of the rows contributes to the entry `(g, l)`. -/
def rowsum (c : Dev nD) (g : Fin 64) (l : Fin 128) (b : ℕ) (hb : b < cfg6.N) : EReal :=
  ∑ s : Fin 10000, tbl V c (ix2 ⟨b * 10000 + s.val, row_lt ⟨b, hb⟩ s⟩ g) * feat V c (ix2 ⟨b * 10000 + s.val, row_lt ⟨b, hb⟩ s⟩ l)

open ValueIdx in
/-- The products of the two blocks at a point are that point's contribution. -/
theorem blocks_sum (c : Dev nD) (t : Fin cfg6.N) (g : Fin 64) (l : Fin 128) :
    ∑ s : Fin 10000, tblk V c t (ix2 s g) * fblk V c t (ix2 s l) = rowsum V c g l t.val t.isLt := by
  unfold rowsum
  exact Finset.sum_congr rfl fun s _ => congrArg₂ (· * ·) (tblk_apply V c t s g) (fblk_apply V c t s l)

open ValueIdx in
/-- At the first point the block is left holding that point's contribution: `0 + a = a`. -/
theorem step_A (c : Dev nD) (t : Fin cfg6.N) (h0 : t.val % 5 = 0) (g : Fin 64) (l : Fin 128) :
    outsAt6 V c t.val t.isLt (ix2 g l) = rowsum V c g l t.val t.isLt := by
  rw [outsAt6_A V c t h0]
  refine (congrFun (out_A (F := Ideal) c (grid6.coords t) (ms6_0 t) (hs6_0 t) (ms6_1 t) (hs6_1 t) (ms6_2 t) (hs6_2 t)
    ((hcond6_0 t).mpr h0) (tblk V c t) (fblk V c t)) (ix2 g l)).trans ?_
  refine (pay2_apply (tblk V c t) (fblk V c t) (k6_pay1 (F := Ideal)) g l).trans ?_
  rw [pay1_apply, zero_add]
  exact blocks_sum V c t g l

open ValueIdx in
/-- At every later point the block gains that point's contribution. -/
theorem step_B (c : Dev nD) (t : Fin cfg6.N) (h0 : ¬t.val % 5 = 0) (g : Fin 64) (l : Fin 128) :
    outsAt6 V c t.val t.isLt (ix2 g l)
      = outsAt6 V c (t.val - 1) (Nat.lt_of_le_of_lt (Nat.sub_le _ _) t.isLt) (ix2 g l) + rowsum V c g l t.val t.isLt := by
  rw [outsAt6_B V c t h0]
  refine (congrFun (out_B (F := Ideal) c (grid6.coords t) (ms6_0 t) (hs6_0 t) (ms6_1 t) (hs6_1 t) (ms6_2 t) (hs6_2 t)
    (fun hc => h0 ((hcond6_0 t).mp hc)) (tblk V c t) (fblk V c t)
    (outsAt6 V c (t.val - 1) (Nat.lt_of_le_of_lt (Nat.sub_le _ _) t.isLt))) (ix2 g l)).trans ?_
  refine (pay2_apply (tblk V c t) (fblk V c t)
    (outsAt6 V c (t.val - 1) (Nat.lt_of_le_of_lt (Nat.sub_le _ _) t.isLt)) g l).trans ?_
  exact congrArg (outsAt6 V c (t.val - 1) (Nat.lt_of_le_of_lt (Nat.sub_le _ _) t.isLt) (ix2 g l) + ·) (blocks_sum V c t g l)

open ValueIdx in
/-- After point `n` the block holds at `(g, l)` the contributions of the blocks `0, …, n`: by induction on the point. -/
theorem outsAt_apply (c : Dev nD) (g : Fin 64) (l : Fin 128) : ∀ (n : ℕ) (hn : n < cfg6.N),
    outsAt6 V c n hn (ix2 g l)
      = ∑ b : Fin (n + 1), rowsum V c g l b.val (Nat.lt_of_lt_of_le b.isLt (Nat.succ_le_of_lt hn))
  | 0, hn => by
    rw [Fin.sum_univ_castSucc, Fin.sum_univ_zero, zero_add]
    exact step_A V c ⟨0, hn⟩ rfl g l
  | n + 1, hn => by
    have hN : n + 1 < 5 := lt_of_lt_of_eq hn (show cfg6.N = 5 from N_6)
    have hB : ¬(⟨n + 1, hn⟩ : Fin cfg6.N).val % 5 = 0 := by dsimp only; omega
    rw [Fin.sum_univ_castSucc]
    refine (step_B V c ⟨n + 1, hn⟩ hB g l).trans ?_
    exact congrArg₂ (· + ·) (outsAt_apply c g l n (Nat.lt_of_succ_lt hn)) rfl

/-! ## The result array -/

/-- A sum over `Fin a` is the same sum over `Fin b` when `a = b`. -/
theorem sum_fin_cast {M : Type*} [AddCommMonoid M] {a b : ℕ} (hab : a = b) (f : Fin b → M) :
    ∑ k : Fin a, f (k.cast hab) = ∑ n : Fin b, f n := by
  subst hab; rfl

open ValueIdx in
/-- The five blocks' contributions are the sum over all 50000 rows: a sum over 5 * 10000 indices, block by block. -/
theorem total (c : Dev nD) (g : Fin 64) (l : Fin 128) (hb : ∀ b : Fin 5, b.val < cfg6.N) :
    ∑ b : Fin 5, rowsum V c g l b.val (hb b) = ∑ n : Fin 50000, tbl V c (ix2 n g) * feat V c (ix2 n l) := by
  have h := Cert.LibSums.sum_blocks 5 10000
    (fun k : Fin (5 * 10000) => tbl V c (ix2 (k.cast (by norm_num : 5 * 10000 = 50000)) g) * feat V c (ix2 (k.cast (by norm_num : 5 * 10000 = 50000)) l))
  exact h.trans (sum_fin_cast (by norm_num : 5 * 10000 = 50000) (fun n : Fin 50000 => tbl V c (ix2 n g) * feat V c (ix2 n l)))

open ValueIdx in
/-- After the last point the block holds at `(g, l)` the sum over all rows. -/
theorem last_apply (c : Dev nD) (t : Fin cfg6.N) (h4 : t.val % 5 = 4) (g : Fin 64) (l : Fin 128) :
    outsAt6 V c t.val t.isLt (ix2 g l) = ∑ n : Fin 50000, tbl V c (ix2 n g) * feat V c (ix2 n l) := by
  obtain ⟨tv, ht⟩ := t
  have hN : tv < 5 := lt_of_lt_of_eq ht (show cfg6.N = 5 from N_6)
  obtain rfl : tv = 4 := by dsimp only at h4; omega
  exact (outsAt_apply V c g l 4 ht).trans
    (total V c g l fun b => Nat.lt_of_lt_of_le b.isLt (Nat.succ_le_of_lt ht))

/-- The array the region leaves: at `i` the sum over every row. -/
def pooled (c : Dev nD) : FVec Ideal S64x128 .f32 :=
  fun i => ∑ n : Fin 50000, tbl V c (tix i n) * feat V c (fix i n)

open ValueIdx in
theorem tix_ix2 (g : Fin 64) (l : Fin 128) (n : Fin 50000) : tix (ix2 g l) n = ix2 n g :=
  funext fun a => by match a with | ⟨0, _⟩ => rfl | ⟨1, _⟩ => rfl
open ValueIdx in
theorem fix_ix2 (g : Fin 64) (l : Fin 128) (n : Fin 50000) : fix (ix2 g l) n = ix2 n l :=
  funext fun a => by match a with | ⟨0, _⟩ => rfl | ⟨1, _⟩ => rfl

open ValueIdx in
theorem pooled_apply (c : Dev nD) (g : Fin 64) (l : Fin 128) :
    pooled V c (ix2 g l) = ∑ n : Fin 50000, tbl V c (ix2 n g) * feat V c (ix2 n l) := by
  unfold pooled
  exact Finset.sum_congr rfl fun n _ => by rw [tix_ix2, fix_ix2]

/-- The result window's one block sits at block index `(0, 0)` at every point. -/
theorem index6_2 : ∀ t : Fin cfg6.N, win6_2.index t 0 = 0 ∧ win6_2.index t 1 = 0 :=
  (by decide +kernel : ∀ t : Fin grid6.N, win6_2.index t 0 = 0 ∧ win6_2.index t 1 = 0)

/-- So its offsets in the array are zero: the block is the whole array. -/
theorem off6_2 (t : Fin cfg6.N) : (fun a => win6_2.index t a * win6_2.size a) = fun _ => 0 :=
  funext fun a => by
    match a with
    | ⟨0, _⟩ => show win6_2.index t 0 * _ = 0; rw [(index6_2 t).1, Nat.zero_mul]
    | ⟨1, _⟩ => show win6_2.index t 1 * _ = 0; rw [(index6_2 t).2, Nat.zero_mul]

open ValueIdx in
/-- Reading any contents of the array through the result window's block reads them in place. -/
theorem read_blk2 (t : Fin cfg6.N) (G : FVec Ideal S64x128 .f32) (g : Fin 64) (l : Fin 128) :
    ((cfg6.win 2).blk t).view.read (Elt Ideal) G (ix2 g l) = G (ix2 g l) := by
  have hi := index6_2 t
  rw [View.read_apply]
  show G _ = G _
  congr 1
  funext a
  apply Fin.ext
  match a with
  | ⟨0, _⟩ =>
    show win6_2.index t 0 * 64 + 1 * g.val = g.val
    rw [hi.1]; omega
  | ⟨1, _⟩ =>
    show win6_2.index t 1 * 128 + 1 * l.val = l.val
    rw [hi.2]; omega

open ValueIdx in
/-- What the block holds after the last point is written back: the array's sums, read through the block. -/
theorem flushed_eq (c : Dev nD) (t : Fin cfg6.N) (hf : (cfg6.win 2).flush t = true) :
    (dat6 V c).flushed 2 t = ((cfg6.win 2).blk t).view.read (Elt Ideal) (pooled V c) := by
  have h4 : t.val % 5 = 4 := (flush6_2 t).mp hf
  show (cfg6.win 2).cut (grid6.coords t) ((dat6 V c).after 2 t) = _
  rw [after6_2]
  funext j
  obtain ⟨g, l, rfl⟩ : ∃ (g : Fin 64) (l : Fin 128), j = ix2 g l := ⟨j 0, j 1, eq_ix2 j⟩
  refine Eq.trans ?_ (read_blk2 t (pooled V c) g l).symm
  show outsAt6 V c t.val t.isLt (ix2 g l) = pooled V c (ix2 g l)
  exact (last_apply V c t h4 g l).trans (pooled_apply V c g l).symm

/-- The block written back after the last point covers the whole array. -/
theorem cover (c : Dev nD) (i : ((cfg6.win 2).arr.view.loc (c.tc : Thread nD τ)).2.ty.Idx) :
    ∃ t : Fin cfg6.N, (cfg6.win 2).flush t = true ∧ i ∈ ((cfg6.win 2).blk t).view.set := by
  refine ⟨t6_4, (flush6_2 t6_4).mpr rfl, ?_⟩
  show i ∈ ((View.whole main_v87).slice (win6_2.rect t6_4)).set
  rw [View.set_slice_whole]
  exact View.mem_set_unit_zero (S := S64x128) (off6_2 t6_4) _ i

/-- THE RESULT ARRAY of the region: at `(g, h)` the sum over every row of the table's entry for segment `g` times
    the feature in column `h`. -/
theorem arr_eq (c : Dev nD) :
    (dat6 V c).arrAt 2 cfg6.N
      = (fun i => ∑ n : Fin 50000, tbl V c (tix i n) * feat V c (fix i n) : FVec Ideal S64x128 .f32) := by
  exact (dat6 V c).arrAt_eq_of_cover 2 (pooled V c) (flushed_eq V c) (cover c)

end Cert.KernelIdeal.Pool6

end
-- ==== Proof.SegScatter.lean ====
/-
  The two accumulating scatters of the segment mean, read at an index.

  A scatter-add with one index per update row sends update row `n` to the operand row the index names,
  read as a signed number and not clamped; a row whose index lies outside the operand is dropped. So an
  operand entry ends at its own value plus the sum of the update entries of exactly those rows `n` whose
  index equals the entry's row — for the sums the entry of the same column, for the counts the one entry
  of the row.
-/
import proofs.«404155_j15109694947665_1_alg».proof.Proof.Gen.ReferenceIdeal
import Idealize.ShloMosaic.Lib.ValueIdx
import Idealize.ShloMosaic.PureOps.Ideal.Laws

set_option maxRecDepth 16384

noncomputable section

namespace Cert.ReferenceIdeal.SegScatter

open Idealize.ShloMosaic Idealize.SL.Sem
open Cert.ReferenceIdeal
open Idealize.ShloMosaic.ValueIdx

/-- Row `n` of the index column. -/
abbrev rowIdx (n : Fin 50000) : S50000x1.Idx := ix2 n (0 : Fin 1)
/-- Update row `n`, at the column of the operand entry `i`. -/
abbrev updIdx (i : S64x128.Idx) (n : Fin 50000) : S50000x128.Idx := fun a => match a with
  | ⟨0, _⟩ => ⟨n.val, n.isLt⟩
  | ⟨1, _⟩ => ⟨(i 1).val, (i 1).isLt⟩
/-- Update entry `n` of a vector of updates. -/
abbrev cntIdx (n : Fin 50000) : S50000.Idx := ix1 n

/-! ## The sums' scatter: update index `(n, c')`, operand index `(g, h)` -/

section Sums
variable {w : Nat} (idx : IVec S50000x1 w) (n : Fin 50000) (c' : Fin 128)

/-- The scatter-indices entry an update row reads its one start component from is `(n, 0)`: the row comes
    from the update's scatter axis, the `0` is the component's number on the index vector's axis. -/
theorem sums_siIdx (c : Fin scatter_S64x128_S50000x1_S50000x128_1_0_0_1.scatterDimsToOperandDims.length) :
    scatter_S64x128_S50000x1_S50000x128_1_0_0_1.siIdx (ix2 n c') c = rowIdx n := by
  have hc : c.val < 1 := c.isLt
  funext b; refine Fin.ext ?_
  match b with
  | ⟨0, _⟩ => rfl
  | ⟨1, _⟩ =>
    show c.val = 0
    omega

/-- On the row axis the window starts at the index read signed. -/
theorem sums_start0 :
    scatter_S64x128_S50000x1_S50000x128_1_0_0_1.start (ix2 n c') idx 0 = (idx (rowIdx n)).toInt := by
  unfold ScatterDims.start
  rw [dif_pos (show (0 : Fin 2) ∈ scatter_S64x128_S50000x1_S50000x128_1_0_0_1.scatterDimsToOperandDims from
    List.mem_singleton.mpr rfl), sums_siIdx]

/-- The column axis is not named by the map: the window starts at `0` there. -/
theorem sums_start1 :
    scatter_S64x128_S50000x1_S50000x128_1_0_0_1.start (ix2 n c') idx 1 = 0 := by
  unfold ScatterDims.start
  rw [dif_neg (show (1 : Fin 2) ∉ scatter_S64x128_S50000x1_S50000x128_1_0_0_1.scatterDimsToOperandDims by decide)]

/-- The row axis is inserted: the window coordinate is `0` there. -/
theorem sums_window0 :
    scatter_S64x128_S50000x1_S50000x128_1_0_0_1.window (ix2 n c') 0 = 0 := by
  unfold ScatterDims.window
  rw [dif_neg (show (0 : Fin 2) ∉ scatter_S64x128_S50000x1_S50000x128_1_0_0_1.sKept by decide)]

/-- The column axis takes the update's column. -/
theorem sums_window1 :
    scatter_S64x128_S50000x1_S50000x128_1_0_0_1.window (ix2 n c') 1 = c'.val := by
  unfold ScatterDims.window
  rw [dif_pos (show (1 : Fin 2) ∈ scatter_S64x128_S50000x1_S50000x128_1_0_0_1.sKept by decide)]
  rfl

/-- Update entry `(n, c')` lands on operand entry `(g, h)` exactly when row `n`'s index, read signed, is `g`
    and the columns agree; the range conditions hold then because `(g, h)` is an operand index. -/
theorem sums_resultIdx (g : Fin 64) (h : Fin 128) :
    scatter_S64x128_S50000x1_S50000x128_1_0_0_1.resultIdx? (ix2 n c') idx = some (ix2 g h)
      ↔ (idx (rowIdx n)).toInt = (g.val : ℤ) ∧ c' = h := by
  have hg := g.isLt
  have hh := h.isLt
  have hc := c'.isLt
  unfold ScatterDims.resultIdx?
  split
  · rename_i hin
    have h0 : 0 ≤ (idx (rowIdx n)).toInt + ((0 : ℕ) : ℤ) := by
      have := (hin 0).1; rwa [sums_start0, sums_window0] at this
    rw [Option.some.injEq, funext_iff, Fin.forall_fin_two]
    constructor
    · rintro ⟨e0, e1⟩
      have e0' : (scatter_S64x128_S50000x1_S50000x128_1_0_0_1.start (ix2 n c') idx 0
          + (scatter_S64x128_S50000x1_S50000x128_1_0_0_1.window (ix2 n c') 0 : ℕ)).toNat = g.val :=
        congrArg Fin.val e0
      have e1' : (scatter_S64x128_S50000x1_S50000x128_1_0_0_1.start (ix2 n c') idx 1
          + (scatter_S64x128_S50000x1_S50000x128_1_0_0_1.window (ix2 n c') 1 : ℕ)).toNat = h.val :=
        congrArg Fin.val e1
      rw [sums_start0, sums_window0] at e0'
      rw [sums_start1, sums_window1] at e1'
      exact ⟨by omega, Fin.ext (by omega)⟩
    · rintro ⟨e0, e1⟩
      refine ⟨Fin.ext ?_, Fin.ext ?_⟩
      · show (scatter_S64x128_S50000x1_S50000x128_1_0_0_1.start (ix2 n c') idx 0
          + (scatter_S64x128_S50000x1_S50000x128_1_0_0_1.window (ix2 n c') 0 : ℕ)).toNat = g.val
        rw [sums_start0, sums_window0]; omega
      · show (scatter_S64x128_S50000x1_S50000x128_1_0_0_1.start (ix2 n c') idx 1
          + (scatter_S64x128_S50000x1_S50000x128_1_0_0_1.window (ix2 n c') 1 : ℕ)).toNat = h.val
        rw [sums_start1, sums_window1, e1]; omega
  · rename_i hout
    constructor
    · intro e; exact absurd e (by simp)
    · rintro ⟨e0, e1⟩
      refine absurd ?_ hout
      rw [Fin.forall_fin_two, sums_start0, sums_window0, sums_start1, sums_window1]
      refine ⟨⟨by omega, ?_⟩, ⟨by omega, ?_⟩⟩
      · show (idx (rowIdx n)).toInt + ((0 : ℕ) : ℤ) < ((64 : ℕ) : ℤ)
        omega
      · show (0 : ℤ) + ((c'.val : ℕ) : ℤ) < ((128 : ℕ) : ℤ)
        omega

end Sums

/-- The segment sums: entry `i` gains the update entries, in its column, of the rows whose index is its row. -/
theorem sums_apply (x : FVec Ideal S64x128 .f32) (idx : IVec S50000x1 32) (upd : FVec Ideal S50000x128 .f32) (i : S64x128.Idx) :
    Host.scatterAdd (F := Ideal) scatter_S64x128_S50000x1_S50000x128_1_0_0_1 x idx upd i
      = x i + ∑ n ∈ Finset.univ.filter (fun n : Fin 50000 => (idx (rowIdx n)).toInt = ((i 0).val : ℤ)), upd (updIdx i n) := by
  unfold Host.scatterAdd
  rw [Ideal.hostScatterAdd_def]
  unfold Ideal.hostScatterAdd
  refine congrArg (x i + ·) ?_
  -- the update entries that land on `i` are the entries `(n, i 1)` of the rows `n` whose index is `i 0`
  have key : ∀ j : S50000x128.Idx, scatter_S64x128_S50000x1_S50000x128_1_0_0_1.resultIdx? j idx = some i
      ↔ (idx (rowIdx (j 0))).toInt = ((i 0).val : ℤ) ∧ (j 1 : Fin 128) = (i 1 : Fin 128) := by
    intro j
    have eJ : scatter_S64x128_S50000x1_S50000x128_1_0_0_1.resultIdx? j idx
        = scatter_S64x128_S50000x1_S50000x128_1_0_0_1.resultIdx? (ix2 (j 0 : Fin 50000) (j 1 : Fin 128)) idx :=
      congrArg (fun t => scatter_S64x128_S50000x1_S50000x128_1_0_0_1.resultIdx? t idx) (eq_ix2 j)
    have eI : (some i : Option S64x128.Idx) = some (ix2 (i 0 : Fin 64) (i 1 : Fin 128)) := congrArg some (eq_ix2 i)
    rw [eJ, eI]
    exact sums_resultIdx idx (j 0) (j 1) (i 0) (i 1)
  refine Finset.sum_nbij' (fun j => (j 0 : Fin 50000)) (fun n => updIdx i n) ?_ ?_ ?_ ?_ ?_
  · intro j hj
    exact Finset.mem_filter.mpr ⟨Finset.mem_univ _, ((key j).mp (Finset.mem_filter.mp hj).2).1⟩
  · intro n hn
    exact Finset.mem_filter.mpr ⟨Finset.mem_univ _, (key (updIdx i n)).mpr ⟨(Finset.mem_filter.mp hn).2, rfl⟩⟩
  · intro j hj
    have e := ((key j).mp (Finset.mem_filter.mp hj).2).2
    funext a
    match a with
    | ⟨0, _⟩ => rfl
    | ⟨1, _⟩ => exact Fin.ext (congrArg Fin.val e).symm
  · intro n _; rfl
  · intro j hj
    have e := ((key j).mp (Finset.mem_filter.mp hj).2).2
    refine congrArg upd ?_
    funext a
    match a with
    | ⟨0, _⟩ => rfl
    | ⟨1, _⟩ => exact Fin.ext (congrArg Fin.val e)

/-! ## The counts' scatter: update index `(n)`, operand index `(g)`, no window axis -/

section Counts
variable {w : Nat} (idx : IVec S50000x1 w) (n : Fin 50000)

/-- The scatter-indices entry update `n` reads its one start component from is `(n, 0)`. -/
theorem counts_siIdx (c : Fin scatter_S64_S50000x1_S50000_n_0_0_1.scatterDimsToOperandDims.length) :
    scatter_S64_S50000x1_S50000_n_0_0_1.siIdx (ix1 n) c = rowIdx n := by
  have hc : c.val < 1 := c.isLt
  funext b; refine Fin.ext ?_
  match b with
  | ⟨0, _⟩ => rfl
  | ⟨1, _⟩ =>
    show c.val = 0
    omega

/-- On the one operand axis the window starts at the index read signed. -/
theorem counts_start0 :
    scatter_S64_S50000x1_S50000_n_0_0_1.start (ix1 n) idx 0 = (idx (rowIdx n)).toInt := by
  unfold ScatterDims.start
  rw [dif_pos (show (0 : Fin 1) ∈ scatter_S64_S50000x1_S50000_n_0_0_1.scatterDimsToOperandDims from
    List.mem_singleton.mpr rfl), counts_siIdx]

/-- That axis is inserted: the window coordinate is `0`. -/
theorem counts_window0 :
    scatter_S64_S50000x1_S50000_n_0_0_1.window (ix1 n) 0 = 0 := by
  unfold ScatterDims.window
  rw [dif_neg (show (0 : Fin 1) ∉ scatter_S64_S50000x1_S50000_n_0_0_1.sKept by decide)]

/-- Update `n` lands on operand entry `g` exactly when its index, read signed, is `g`. -/
theorem counts_resultIdx (g : Fin 64) :
    scatter_S64_S50000x1_S50000_n_0_0_1.resultIdx? (ix1 n) idx = some (ix1 g)
      ↔ (idx (rowIdx n)).toInt = (g.val : ℤ) := by
  have hg := g.isLt
  unfold ScatterDims.resultIdx?
  split
  · rename_i hin
    have h0 : 0 ≤ (idx (rowIdx n)).toInt + ((0 : ℕ) : ℤ) := by
      have := (hin 0).1; rwa [counts_start0, counts_window0] at this
    rw [Option.some.injEq, funext_iff, Fin.forall_fin_one]
    constructor
    · intro e0
      have e0' : (scatter_S64_S50000x1_S50000_n_0_0_1.start (ix1 n) idx 0
          + (scatter_S64_S50000x1_S50000_n_0_0_1.window (ix1 n) 0 : ℕ)).toNat = g.val :=
        congrArg Fin.val e0
      rw [counts_start0, counts_window0] at e0'
      omega
    · intro e0
      refine Fin.ext ?_
      show (scatter_S64_S50000x1_S50000_n_0_0_1.start (ix1 n) idx 0
        + (scatter_S64_S50000x1_S50000_n_0_0_1.window (ix1 n) 0 : ℕ)).toNat = g.val
      rw [counts_start0, counts_window0]; omega
  · rename_i hout
    constructor
    · intro e; exact absurd e (by simp)
    · intro e0
      refine absurd ?_ hout
      rw [Fin.forall_fin_one, counts_start0, counts_window0]
      refine ⟨by omega, ?_⟩
      show (idx (rowIdx n)).toInt + ((0 : ℕ) : ℤ) < ((64 : ℕ) : ℤ)
      omega

end Counts

/-- The segment counts: entry `i` gains the update entries of the rows whose index is `i`. -/
theorem counts_apply (x : FVec Ideal S64 .f32) (idx : IVec S50000x1 32) (upd : FVec Ideal S50000 .f32) (i : S64.Idx) :
    Host.scatterAdd (F := Ideal) scatter_S64_S50000x1_S50000_n_0_0_1 x idx upd i
      = x i + ∑ n ∈ Finset.univ.filter (fun n : Fin 50000 => (idx (rowIdx n)).toInt = ((i 0).val : ℤ)), upd (cntIdx n) := by
  unfold Host.scatterAdd
  rw [Ideal.hostScatterAdd_def]
  unfold Ideal.hostScatterAdd
  refine congrArg (x i + ·) ?_
  -- the updates that land on `i` are those of the rows whose index is `i 0`
  have key : ∀ j : S50000.Idx, scatter_S64_S50000x1_S50000_n_0_0_1.resultIdx? j idx = some i
      ↔ (idx (rowIdx (j 0))).toInt = ((i 0).val : ℤ) := by
    intro j
    have eJ : scatter_S64_S50000x1_S50000_n_0_0_1.resultIdx? j idx
        = scatter_S64_S50000x1_S50000_n_0_0_1.resultIdx? (ix1 (j 0 : Fin 50000)) idx :=
      congrArg (fun t => scatter_S64_S50000x1_S50000_n_0_0_1.resultIdx? t idx) (eq_ix1 j)
    have eI : (some i : Option S64.Idx) = some (ix1 (i 0 : Fin 64)) := congrArg some (eq_ix1 i)
    rw [eJ, eI]
    exact counts_resultIdx idx (j 0) (i 0)
  refine Finset.sum_nbij' (fun j => (j 0 : Fin 50000)) (fun n => cntIdx n) ?_ ?_ ?_ ?_ ?_
  · intro j hj
    exact Finset.mem_filter.mpr ⟨Finset.mem_univ _, (key j).mp (Finset.mem_filter.mp hj).2⟩
  · intro n hn
    exact Finset.mem_filter.mpr ⟨Finset.mem_univ _, (key (cntIdx n)).mpr (Finset.mem_filter.mp hn).2⟩
  · intro j _; exact (eq_ix1 j).symm
  · intro n _; rfl
  · intro j _
    exact congrArg upd (eq_ix1 j)

end Cert.ReferenceIdeal.SegScatter

end
-- ==== Proof.IndicatorSums.lean ====
/-
  Sums weighted by a 0/1 indicator, over the extended reals.

  A segment sum written as a product with a one-hot row is the sum over the rows of that segment: the
  indicator of a predicate `P` times a term is the term where `P` holds and `0` elsewhere (on the extended
  reals `1 * a = a` and `0 * a = 0` for every `a`, the infinities included, and `0` is neutral for the
  sum), so nothing is assumed of the terms. The count of a segment is the same statement with every term
  `1`. The indicator itself arises as a one-bit equality test read as an unsigned number.
-/
import Idealize.ShloMosaic.PureOps.Ideal
import Idealize.ShloMosaic.Lib.StableHlo.Predicate

open Idealize.ShloMosaic

namespace Cert.IndicatorSums

/-- The sum of indicator-weighted terms is the sum of the terms over the indices the predicate selects. -/
theorem sum_indicator_mul {ι : Type*} [Fintype ι] (P : ι → Prop) [DecidablePred P] (h : ι → EReal) :
    ∑ n, (if P n then (1 : EReal) else 0) * h n = ∑ n ∈ Finset.univ.filter P, h n := by
  rw [Finset.sum_filter]
  refine Finset.sum_congr rfl fun n _ => ?_
  by_cases hp : P n
  · rw [if_pos hp, if_pos hp, one_mul]
  · rw [if_neg hp, if_neg hp, zero_mul]

/-- The sum of the indicator alone counts the selected indices: the sum of `1` over them. -/
theorem sum_indicator {ι : Type*} [Fintype ι] (P : ι → Prop) [DecidablePred P] :
    ∑ n, (if P n then (1 : EReal) else 0) = ∑ n ∈ Finset.univ.filter P, (1 : EReal) := by
  rw [Finset.sum_filter]

/-- The one-bit result of an equality test of two words, read as an unsigned number at the exact
    instance, is the indicator of the equality: `1` when the words are equal, `0` when they differ. -/
theorem uitofp_cmpi_eq {w : Nat} (φ : FTy) (x y : BitVec w) :
    FloatOps.uitofp (F := Ideal) φ (IntOp.cmpi .eq x y) = if x = y then (1 : EReal) else 0 := by
  show (((IntOp.cmpi .eq x y).toNat : ℝ) : EReal) = _
  unfold IntOp.cmpi
  by_cases h : x = y
  · simp [h]
  · simp [h]

end Cert.IndicatorSums
-- ==== Proof.ChainC.lean ====
/-
  The kernel program's buffers against the reference's stages, over the exact extended reals.

  Here the numbers enter, and only through facts that hold for every extended real, the infinities
  included. A dense region's array is the sum over the contraction of the products, which is what the
  reference's matrix product is. A bias region's array is the maximum with zero of the aggregate plus the
  bias of the column, which is the reference's sum with the broadcast bias row and its maximum with zero.
  The pooling region's array is, at segment `g` and column `h`, the sum over ALL rows of the membership
  entry times the feature; the membership entry is `1` where the row's segment id is `g` and `0` elsewhere,
  `1 * a = a`, `0 * a = 0`, and `0` is neutral for the sum: so it is the sum of the features over the rows
  of segment `g`, which is what the reference's scatter-add of the features by the segment ids leaves
  there (a row whose id is no segment is dropped on both sides). The segment counts are the same statement
  with every feature `1`. From there on the two programs apply the same operations to equal values.
-/
import proofs.«404155_j15109694947665_1_alg».proof.Proof.ChainB
import proofs.«404155_j15109694947665_1_alg».proof.Proof.Dense0
import proofs.«404155_j15109694947665_1_alg».proof.Proof.Dense2
import proofs.«404155_j15109694947665_1_alg».proof.Proof.Dense4
import proofs.«404155_j15109694947665_1_alg».proof.Proof.Bias1
import proofs.«404155_j15109694947665_1_alg».proof.Proof.Bias3
import proofs.«404155_j15109694947665_1_alg».proof.Proof.Bias5
import proofs.«404155_j15109694947665_1_alg».proof.Proof.Pool6
import proofs.«404155_j15109694947665_1_alg».proof.Proof.SegScatter
import proofs.«404155_j15109694947665_1_alg».proof.Proof.IndicatorSums

set_option maxRecDepth 16384

noncomputable section

namespace Cert.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first layer -/

/-- The first dense transform: the region's result array is the reference's matrix product. -/
theorem st4_v32 : W4 m ρ c (Proc.devRef .tc main_v32) = Cert.ReferenceIdeal.ReadP.val_main_v32 (F := Ideal) (m ((c : Thread nD τ).loc main_arg0)) (m ((c : Thread nD τ).loc main_arg4)) := by
  refine (W4_arr m ρ c 2).trans ?_
  rw [Cert.KernelIdeal.Dense0.arr_eq (V3 m ρ) c]
  funext i
  rw [Cert.ReferenceIdeal.ReadP.val_main_v32_apply]
  have hx : Cert.KernelIdeal.Dense0.xs (V3 m ρ) c = (m ((c : Thread nD τ).loc main_arg0)) := h3_arg m ρ c main_arg0 (by simp)
  have hw : Cert.KernelIdeal.Dense0.ws (V3 m ρ) c = (m ((c : Thread nD τ).loc main_arg4)) := h3_arg m ρ c main_arg4 (by simp)
  rw [hx, hw]
  refine Finset.sum_congr rfl fun k _ => ?_
  have hl : Cert.KernelIdeal.Dense0.lix i k = Cert.ReferenceIdeal.ReadP.lidx_main_v32 i k := funext fun a => by
    match a with
    | ⟨0, _⟩ => rfl
    | ⟨1, _⟩ => rfl
  have hr : Cert.KernelIdeal.Dense0.rix i k = Cert.ReferenceIdeal.ReadP.ridx_main_v32 i k := funext fun a => by
    match a with
    | ⟨0, _⟩ => rfl
    | ⟨1, _⟩ => rfl
  rw [hl, hr]

/-- The first aggregation: the same function of equal dense results. -/
theorem st5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg4)) :=
  (agg5 m ρ c _ (st4_v32 m ρ c)).trans (Cert.ReferenceIdeal.Shape.val45_eq (m ((c : Thread nD τ).loc main_arg0)) (m ((c : Thread nD τ).loc main_arg1)) (m ((c : Thread nD τ).loc main_arg4))).symm

/-- The first bias and rectifier: entry by entry the aggregate plus the bias of its column, cut off below at zero,
    as the reference's broadcast bias, sum and maximum with zero. -/
theorem st6_v47 : W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg4)) (m ((c : Thread nD τ).loc main_arg5)) := by
  refine (W6_arr m ρ c 2).trans ?_
  rw [Cert.KernelIdeal.Bias1.arr_eq (V5 m ρ) c]
  funext i
  have hagg : Cert.KernelIdeal.Bias1.agg (V5 m ρ) c = Cert.ReferenceIdeal.ReadP.val_main_v45 (F := Ideal) (m ((c : Thread nD τ).loc main_arg0)) (m ((c : Thread nD τ).loc main_arg1)) (m ((c : Thread nD τ).loc main_arg4)) := st5_v45 m ρ c
  have hrow : Cert.KernelIdeal.Bias1.brow (V5 m ρ) c = shapeCast S1x128 (m ((c : Thread nD τ).loc main_arg5)) shapeCasts_S128_S1x128 := row5 m ρ c
  rw [hagg, hrow]
  rw [Cert.ReferenceIdeal.ReadP.val_main_v49_apply, Cert.ReferenceIdeal.ReadP.val_main_v48_apply, Cert.ReferenceIdeal.ReadP.val_main_v47_apply, Cert.ReferenceIdeal.ReadP.val_main_v46_apply,
    Cert.ReferenceIdeal.ReadP.val_main_call1_v0_apply, Cert.ReferenceIdeal.ReadP.val_main_call1_cst_apply]
  rw [Ideal.maximumf_def, Ideal.addf_def, Ideal.ofBits_def, Ideal.ofBits_zero_f32]
  have hb : shapeCast S1x128 (m ((c : Thread nD τ).loc main_arg5)) shapeCasts_S128_S1x128 (Cert.KernelIdeal.Bias1.bix i)
      = (m ((c : Thread nD τ).loc main_arg5)) (Cert.ReferenceIdeal.ReadP.idx_main_v46 (Cert.ReferenceIdeal.ReadP.idx_main_v47 i)) :=
    shapeCast_apply _ shapeCasts_S128_S1x128 (Cert.KernelIdeal.Bias1.bix i) (Cert.ReferenceIdeal.ReadP.idx_main_v46 (Cert.ReferenceIdeal.ReadP.idx_main_v47 i))
      (by rewrite [Shape.rowMajor_val_one, Shape.rowMajor_val_two]; show (i 1).val = 0 * 128 + (i 1).val; omega)
  rw [hb]

/-! ## The second layer -/

/-- The second dense transform: the region's result array is the reference's matrix product. -/
theorem st7_v48 : W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W7_arr m ρ c 2).trans ?_
  rw [Cert.KernelIdeal.Dense2.arr_eq (V6 m ρ) c]
  funext i
  rw [Cert.ReferenceIdeal.ReadP.val_main_v50_apply]
  have hx : Cert.KernelIdeal.Dense2.xs (V6 m ρ) c = Cert.ReferenceIdeal.ReadP.val_main_v49 (F := Ideal) (m ((c : Thread nD τ).loc main_arg0)) (m ((c : Thread nD τ).loc main_arg1)) (m ((c : Thread nD τ).loc main_arg4)) (m ((c : Thread nD τ).loc main_arg5)) := st6_v47 m ρ c
  have hw : Cert.KernelIdeal.Dense2.ws (V6 m ρ) c = (m ((c : Thread nD τ).loc main_arg6)) := arg6_at6 m ρ c
  rw [hx, hw]
  refine Finset.sum_congr rfl fun k _ => ?_
  have hl : Cert.KernelIdeal.Dense2.lix i k = Cert.ReferenceIdeal.ReadP.lidx_main_v50 i k := funext fun a => by
    match a with
    | ⟨0, _⟩ => rfl
    | ⟨1, _⟩ => rfl
  have hr : Cert.KernelIdeal.Dense2.rix i k = Cert.ReferenceIdeal.ReadP.ridx_main_v50 i k := funext fun a => by
    match a with
    | ⟨0, _⟩ => rfl
    | ⟨1, _⟩ => rfl
  rw [hl, hr]

/-- The second aggregation: the same function of equal dense results. -/
theorem st8_v61 : W8 m ρ c (Proc.devRef .tc main_v61) = Cert.ReferenceIdeal.ReadP.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  (agg8 m ρ c _ (st7_v48 m ρ c)).trans (Cert.ReferenceIdeal.Shape.val63_eq (m ((c : Thread nD τ).loc main_arg0)) (m ((c : Thread nD τ).loc main_arg1)) (m ((c : Thread nD τ).loc main_arg4)) (m ((c : Thread nD τ).loc main_arg5)) (m ((c : Thread nD τ).loc main_arg6))).symm

/-- The second bias and rectifier: entry by entry the aggregate plus the bias of its column, cut off below at zero,
    as the reference's broadcast bias, sum and maximum with zero. -/
theorem st9_v63 : W9 m ρ c (Proc.devRef .tc main_v63) = Cert.ReferenceIdeal.ReadP.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W9_arr m ρ c 2).trans ?_
  rw [Cert.KernelIdeal.Bias3.arr_eq (V8 m ρ) c]
  funext i
  have hagg : Cert.KernelIdeal.Bias3.agg (V8 m ρ) c = Cert.ReferenceIdeal.ReadP.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := st8_v61 m ρ c
  have hrow : Cert.KernelIdeal.Bias3.brow (V8 m ρ) c = shapeCast S1x128 (m ((c : Thread nD τ).loc main_arg7)) shapeCasts_S128_S1x128 := row8 m ρ c
  rw [hagg, hrow]
  rw [Cert.ReferenceIdeal.ReadP.val_main_v67_apply, Cert.ReferenceIdeal.ReadP.val_main_v66_apply, Cert.ReferenceIdeal.ReadP.val_main_v65_apply, Cert.ReferenceIdeal.ReadP.val_main_v64_apply,
    Cert.ReferenceIdeal.ReadP.val_main_call2_v0_apply, Cert.ReferenceIdeal.ReadP.val_main_call2_cst_apply]
  rw [Ideal.maximumf_def, Ideal.addf_def, Ideal.ofBits_def, Ideal.ofBits_zero_f32]
  have hb : shapeCast S1x128 (m ((c : Thread nD τ).loc main_arg7)) shapeCasts_S128_S1x128 (Cert.KernelIdeal.Bias3.bix i)
      = (m ((c : Thread nD τ).loc main_arg7)) (Cert.ReferenceIdeal.ReadP.idx_main_v64 (Cert.ReferenceIdeal.ReadP.idx_main_v65 i)) :=
    shapeCast_apply _ shapeCasts_S128_S1x128 (Cert.KernelIdeal.Bias3.bix i) (Cert.ReferenceIdeal.ReadP.idx_main_v64 (Cert.ReferenceIdeal.ReadP.idx_main_v65 i))
      (by rewrite [Shape.rowMajor_val_one, Shape.rowMajor_val_two]; show (i 1).val = 0 * 128 + (i 1).val; omega)
  rw [hb]

/-! ## The third layer -/

/-- The third dense transform: the region's result array is the reference's matrix product. -/
theorem st10_v64 : W10 m ρ c (Proc.devRef .tc main_v64) = Cert.ReferenceIdeal.ReadP.val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  rw [Cert.KernelIdeal.Dense4.arr_eq (V9 m ρ) c]
  funext i
  rw [Cert.ReferenceIdeal.ReadP.val_main_v68_apply]
  have hx : Cert.KernelIdeal.Dense4.xs (V9 m ρ) c = Cert.ReferenceIdeal.ReadP.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := st9_v63 m ρ c
  have hw : Cert.KernelIdeal.Dense4.ws (V9 m ρ) c = (m ((c : Thread nD τ).loc main_arg8)) := arg8_at9 m ρ c
  rw [hx, hw]
  refine Finset.sum_congr rfl fun k _ => ?_
  have hl : Cert.KernelIdeal.Dense4.lix i k = Cert.ReferenceIdeal.ReadP.lidx_main_v68 i k := funext fun a => by
    match a with
    | ⟨0, _⟩ => rfl
    | ⟨1, _⟩ => rfl
  have hr : Cert.KernelIdeal.Dense4.rix i k = Cert.ReferenceIdeal.ReadP.ridx_main_v68 i k := funext fun a => by
    match a with
    | ⟨0, _⟩ => rfl
    | ⟨1, _⟩ => rfl
  rw [hl, hr]

/-- The third aggregation: the same function of equal dense results. -/
theorem st11_v77 : W11 m ρ c (Proc.devRef .tc main_v77) = Cert.ReferenceIdeal.ReadP.val_main_v81 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) :=
  (agg11 m ρ c _ (st10_v64 m ρ c)).trans (Cert.ReferenceIdeal.Shape.val81_eq (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))).symm

/-- The third bias and rectifier: entry by entry the aggregate plus the bias of its column, cut off below at zero,
    as the reference's broadcast bias, sum and maximum with zero. -/
theorem st12_v79 : W12 m ρ c (Proc.devRef .tc main_v79) = Cert.ReferenceIdeal.ReadP.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ?_
  rw [Cert.KernelIdeal.Bias5.arr_eq (V11 m ρ) c]
  funext i
  have hagg : Cert.KernelIdeal.Bias5.agg (V11 m ρ) c = Cert.ReferenceIdeal.ReadP.val_main_v81 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := st11_v77 m ρ c
  have hrow : Cert.KernelIdeal.Bias5.brow (V11 m ρ) c = shapeCast S1x128 (m ((c : Thread nD τ).loc main_arg9)) shapeCasts_S128_S1x128 := row11 m ρ c
  rw [hagg, hrow]
  rw [Cert.ReferenceIdeal.ReadP.val_main_v85_apply, Cert.ReferenceIdeal.ReadP.val_main_v84_apply, Cert.ReferenceIdeal.ReadP.val_main_v83_apply, Cert.ReferenceIdeal.ReadP.val_main_v82_apply,
    Cert.ReferenceIdeal.ReadP.val_main_call3_v0_apply, Cert.ReferenceIdeal.ReadP.val_main_call3_cst_apply]
  rw [Ideal.maximumf_def, Ideal.addf_def, Ideal.ofBits_def, Ideal.ofBits_zero_f32]
  have hb : shapeCast S1x128 (m ((c : Thread nD τ).loc main_arg9)) shapeCasts_S128_S1x128 (Cert.KernelIdeal.Bias5.bix i)
      = (m ((c : Thread nD τ).loc main_arg9)) (Cert.ReferenceIdeal.ReadP.idx_main_v82 (Cert.ReferenceIdeal.ReadP.idx_main_v83 i)) :=
    shapeCast_apply _ shapeCasts_S128_S1x128 (Cert.KernelIdeal.Bias5.bix i) (Cert.ReferenceIdeal.ReadP.idx_main_v82 (Cert.ReferenceIdeal.ReadP.idx_main_v83 i))
      (by rewrite [Shape.rowMajor_val_one, Shape.rowMajor_val_two]; show (i 1).val = 0 * 128 + (i 1).val; omega)
  rw [hb]

end Cert.Chain

end
-- ==== Proof.ChainD.lean ====
/-
  The pooling, the counts and the result, over the exact extended reals.

  The membership table has, at row `n` and column `g`, the one-bit test "the segment id of node `n` is the
  word `g`" read as a number: `1` or `0`. A word equals the word of a number `g` below 64 exactly when its
  signed value is `g`, which is how the reference's scatter reads the id. So the pooling region's sum over
  all rows of table entry times feature is the sum of the features over the rows whose id is `g`: the
  reference's scatter-add of the features, from zero. The column sums of the table count those rows: the
  reference's scatter-add of ones, from zero. With equal sums and equal counts the last stretch, the same
  on both sides, gives equal results.
-/
import proofs.«404155_j15109694947665_1_alg».proof.Proof.ChainC
import Idealize.ShloMosaic.Lib.IdealHost

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen

/-! ## The membership table at an index -/

/-- A 32-bit word is the word of a number below 64 exactly when its signed value is that number. -/
theorem word_eq_iff (w : BitVec 32) (g : ℕ) (hg : g < 64) : w = BitVec.ofNat 32 g ↔ w.toInt = (g : ℤ) := by
  have hw := w.isLt
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    split at h <;> omega

/-- Row `n`, column `g` of the table: `1` when node `n`'s segment id is the word `g`, else `0`. -/
theorem table_apply (b : (⟨S50000, .i32⟩ : BufTy).Contents (Elt Ideal)) (n : Fin 50000) (g : Fin 64) :
    table (F := Ideal) b (ix2 n g) = if b (ix1 n) = BitVec.ofNat 32 g.val then (1 : EReal) else 0 := by
  have hA : broadcastInDim S50000x64 ![0, 1] bcast_S50000x1_S50000x64_0_1 (broadcastInDim S50000x1 ![0] bcast_S50000_S50000x1_0 b) (ix2 n g)
      = b (ix1 n) := by
    rw [broadcastInDim_apply _ bcast_S50000x1_S50000x64_0_1 _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl])]
    exact broadcastInDim_apply _ bcast_S50000_S50000x1_0 b (ix2 n (0 : Fin 1)) (ix1 n) (fun a => match a with
      | ⟨0, _⟩ => by show n.val = if (50000 : Nat) = 1 then 0 else n.val; rw [if_neg (by decide)])
  have hB : broadcastInDim S50000x64 ![0, 1] bcast_S1x64_S50000x64_0_1 (broadcastInDim S1x64 ![1] bcast_S64_S1x64_1 (iotaInDim S64 32 0)) (ix2 n g)
      = BitVec.ofNat 32 g.val := by
    rw [broadcastInDim_apply _ bcast_S1x64_S50000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])]
    rw [broadcastInDim_apply _ bcast_S64_S1x64_1 (iotaInDim S64 32 0) (ix2 (0 : Fin 1) g) (ix1 g) (fun a => match a with
      | ⟨0, _⟩ => by show g.val = if (64 : Nat) = 1 then 0 else g.val; rw [if_neg (by decide)])]
    rfl
  show FloatOps.uitofp (F := Ideal) .bf16 (IntOp.cmpi .eq
      (broadcastInDim S50000x64 ![0, 1] bcast_S50000x1_S50000x64_0_1 (broadcastInDim S50000x1 ![0] bcast_S50000_S50000x1_0 b) (ix2 n g))
      (broadcastInDim S50000x64 ![0, 1] bcast_S1x64_S50000x64_0_1 (broadcastInDim S1x64 ![1] bcast_S64_S1x64_1 (iotaInDim S64 32 0)) (ix2 n g))) = _
  rw [Cert.IndicatorSums.uitofp_cmpi_eq, hA, hB]

variable (m : (ℓ : Loc nD τ sig) → Buf (Elt Ideal) ℓ) (ρ : Dev nD → PrngReg) (c : Dev nD)

/-- The reference reads node `n`'s segment id where the table does. -/
theorem id_row (n : Fin 50000) : Cert.ReferenceIdeal.ReadP.val_main_v87 (F := Ideal) (m ((c : Thread nD τ).loc main_arg2)) (Cert.ReferenceIdeal.SegScatter.rowIdx n) = (m ((c : Thread nD τ).loc main_arg2)) (ix1 n) := by
  rw [Cert.ReferenceIdeal.ReadP.val_main_v87_apply]
  exact congrArg _ (funext fun a => by
    match a with
    | ⟨0, _⟩ => rfl)
theorem id_row' (n : Fin 50000) : Cert.ReferenceIdeal.ReadP.val_main_v91 (F := Ideal) (m ((c : Thread nD τ).loc main_arg2)) (Cert.ReferenceIdeal.SegScatter.rowIdx n) = (m ((c : Thread nD τ).loc main_arg2)) (ix1 n) := by
  rw [Cert.ReferenceIdeal.ReadP.val_main_v91_apply]
  exact congrArg _ (funext fun a => by
    match a with
    | ⟨0, _⟩ => rfl)

/-! ## The pooling -/

/-- THE SEGMENT SUMS: the pooling region's array is the reference's scatter-add of the features by the segment ids. -/
theorem st14_v87 : W14 m ρ c (Proc.devRef .tc main_v87) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 2).trans ?_
  rw [Cert.KernelIdeal.Pool6.arr_eq (V13 m ρ) c]
  funext i
  have ht : Cert.KernelIdeal.Pool6.tbl (V13 m ρ) c = table (F := Ideal) (m ((c : Thread nD τ).loc main_arg2)) := tbl13 m ρ c
  have hf : Cert.KernelIdeal.Pool6.feat (V13 m ρ) c = Cert.ReferenceIdeal.ReadP.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (feat13 m ρ c).trans (st12_v79 m ρ c)
  rw [ht, hf]
  show _ = Host.scatterAdd (F := Ideal) Cert.ReferenceIdeal.scatter_S64x128_S50000x1_S50000x128_1_0_0_1 (Cert.ReferenceIdeal.ReadP.val_main_v86 (F := Ideal)) (Cert.ReferenceIdeal.ReadP.val_main_v87 (F := Ideal) (m ((c : Thread nD τ).loc main_arg2))) (Cert.ReferenceIdeal.ReadP.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i
  rw [Cert.ReferenceIdeal.SegScatter.sums_apply, Cert.ReferenceIdeal.ReadP.val_main_v86_apply, Cert.ReferenceIdeal.ReadP.val_main_cst_16_apply, Ideal.ofBits_def, Ideal.ofBits_zero_f32, zero_add]
  rw [← Cert.IndicatorSums.sum_indicator_mul (fun n : Fin 50000 => (Cert.ReferenceIdeal.ReadP.val_main_v87 (F := Ideal) (m ((c : Thread nD τ).loc main_arg2)) (Cert.ReferenceIdeal.SegScatter.rowIdx n)).toInt = ((i 0).val : ℤ))
    (fun n => Cert.ReferenceIdeal.ReadP.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (Cert.ReferenceIdeal.SegScatter.updIdx i n))]
  refine Finset.sum_congr rfl fun n _ => ?_
  have e1 : Cert.KernelIdeal.Pool6.tix i n = ix2 n (⟨(i 0).val, (i 0).isLt⟩ : Fin 64) := funext fun a => by
    match a with
    | ⟨0, _⟩ => rfl
    | ⟨1, _⟩ => rfl
  have e2 : Cert.KernelIdeal.Pool6.fix i n = Cert.ReferenceIdeal.SegScatter.updIdx i n := funext fun a => by
    match a with
    | ⟨0, _⟩ => rfl
    | ⟨1, _⟩ => rfl
  rw [e1, e2, table_apply, id_row m c n]
  exact congrArg (· * _) (if_congr (word_eq_iff _ _ (i 0).isLt) rfl rfl)

/-! ## The counts -/

/-- THE SEGMENT COUNTS: the column sums of the table are the reference's scatter-add of ones by the segment ids. -/
theorem counts_eq :
    Host.reduceAdd (F := Ideal) (extf .f32 (table (F := Ideal) (m ((c : Thread nD τ).loc main_arg2))) bitsLt_bf16_f32) (constant S_ .f32 0x00000000#32) reducesTo_S50000x64_S64_d0 h_S_
      = Cert.ReferenceIdeal.ReadP.val_main_v92 (F := Ideal) (m ((c : Thread nD τ).loc main_arg2)) := by
  funext j
  -- the segment, as a number below 64
  obtain ⟨g, rfl⟩ : ∃ g : Fin 64, j = ix1 g := ⟨j 0, eq_ix1 j⟩
  have hred : S50000x64.Reduces [0] S64 := by decide
  unfold Host.reduceAdd
  rw [Ideal.hostReduceAdd_def, Ideal.hostReduceAdd_single reducesTo_S50000x64_S64_d0 hred, ValueIdx.constant_apply, Ideal.ofBits_zero_f32]
  unfold Cert.ReferenceIdeal.ReadP.val_main_v92
  rw [Cert.ReferenceIdeal.SegScatter.counts_apply, Cert.ReferenceIdeal.ReadP.val_main_v90_apply, Cert.ReferenceIdeal.ReadP.val_main_cst_18_apply,
    Ideal.ofBits_def, Ideal.ofBits_zero_f32]
  refine congrArg (0 + ·) ?_
  have hone : ∀ n : Fin 50000, Cert.ReferenceIdeal.ReadP.val_main_v89 (F := Ideal) (Cert.ReferenceIdeal.SegScatter.cntIdx n) = (1 : EReal) := fun n => by
    rw [Cert.ReferenceIdeal.ReadP.val_main_v89_apply, Cert.ReferenceIdeal.ReadP.val_main_cst_17_apply, Ideal.ofBits_def, Ideal.ofBits_one_f32]
  rw [Finset.sum_congr rfl (fun n _ => hone n), ← Cert.IndicatorSums.sum_indicator]
  refine Finset.sum_congr rfl fun (n : Fin 50000) _ => ?_
  -- the table's entry the column sum reads at row `n`
  have e : hred.lift (ix1 g) n = ix2 n g := funext fun a => Fin.ext (by
    match a with
    | ⟨0, _⟩ => rfl
    | ⟨1, _⟩ => rfl)
  show table (F := Ideal) (m ((c : Thread nD τ).loc main_arg2)) (hred.lift (ix1 g) n) = _
  rw [e, table_apply, id_row' m c n]
  exact if_congr (word_eq_iff _ _ g.isLt) rfl rfl

/-! ## The result -/

/-- THE RESULT of the kernel program is the reference's result, as a function of the sixteen arguments. -/
theorem result_eq : W19 m ρ c (Proc.devRef .tc main_v109) = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [tail19 m ρ c _ (st14_v87 m ρ c), counts_eq m c]
  exact (Cert.ReferenceIdeal.Shape.val112_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm

end Cert.Chain

end
-- ==== Proof.lean ====
/-
  A graph network in two programs: three graph-convolution layers, a mean over each graph of the batch, and
  a small dense network on the means joined with per-graph features.

  Both programs first form, from the edge list, the senders and receivers with a self loop per node, the
  degree of each node, and each edge's weight, the product of its end points' inverse square roots of the
  degree. A layer multiplies the node features by a weight matrix, gathers the product's rows at the
  senders, scales them by the edge weights, adds them into the receivers' rows, adds a bias and cuts off
  below at zero. The kernel program runs the matrix product and the bias step as tiled regions over blocks
  of 10000 nodes, with the product's operands passed through a narrower float format; the reference runs
  them as whole-array operations. On exact values the change of format is the identity and a tiled product
  or pointwise step is the whole one, entry by entry. The mean over a graph is, in the reference, a
  scatter-add of the node features (and of ones, for the counts) by the nodes' graph ids; in the kernel
  program it is the product of the transposed table of graph membership with the features, accumulated
  over the five blocks of nodes, and the counts are the table's column sums. Entry `(g, h)` is on both
  sides the sum of the features in column `h` over the nodes whose id is `g`: `1 * a = a`, `0 * a = 0` and
  `0 + a = a` hold for every extended real, and a sum may be taken block by block. A node whose id names no
  graph contributes to neither. Nothing is assumed of the inputs beyond what the statement assumes: the
  equalities used hold at the infinities too.

  The frames of the two kernel programs are the generated frame certificates; the reference's frame is its
  run with the result dropped; no operation was rewritten on the way to the idealized kernel program, so
  the fourth claim is trivial. For the fifth the kernel program's run names its result as the last value of
  its chain of host stretches and regions, and that value is shown, stage by stage along the chain, to be
  the reference's result as a function of the sixteen arguments.
-/
import proofs.«404155_j15109694947665_1_alg».proof.Defs
import proofs.«404155_j15109694947665_1_alg».proof.Proof.Gen.Kernel
import proofs.«404155_j15109694947665_1_alg».proof.Proof.Gen.Kernel.Skeleton
import proofs.«404155_j15109694947665_1_alg».proof.Proof.Gen.Kernel.Launch
import proofs.«404155_j15109694947665_1_alg».proof.Proof.Gen.Kernel.Points
import proofs.«404155_j15109694947665_1_alg».proof.Proof.Gen.Kernel.Frame
import proofs.«404155_j15109694947665_1_alg».proof.Proof.Gen.KernelIdeal
import proofs.«404155_j15109694947665_1_alg».proof.Proof.Gen.KernelIdeal.Skeleton
import proofs.«404155_j15109694947665_1_alg».proof.Proof.Gen.KernelIdeal.Launch
import proofs.«404155_j15109694947665_1_alg».proof.Proof.Gen.KernelIdeal.Points
import proofs.«404155_j15109694947665_1_alg».proof.Proof.Gen.KernelIdeal.Frame
import proofs.«404155_j15109694947665_1_alg».proof.Proof.Gen.ReferenceIdeal
import proofs.«404155_j15109694947665_1_alg».proof.Proof.Gen.Pre_finite_inputs
import proofs.«404155_j15109694947665_1_alg».proof.Proof.RunValue
import proofs.«404155_j15109694947665_1_alg».proof.Proof.RefRun
import proofs.«404155_j15109694947665_1_alg».proof.Proof.RefRead
import proofs.«404155_j15109694947665_1_alg».proof.Proof.ChainD
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's run, with its result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealized kernel program is the kernel program's own text read over the exact values: nothing was rewritten. -/
theorem preserves : Cert.preserves_Kernel_KernelIdeal := trivial

/-- From memories that agree on the sixteen arguments both programs run, and end with the same result: the last
    value of the kernel program's chain is the reference's result as a function of the arguments. -/
theorem algebraic : Cert.algebraic_KernelIdeal_ReferenceIdeal := by
  intro m ρ m' ρ' _ hagree
  refine ⟨fun c => Cert.KernelIdeal.Gen.W19 m ρ c (Proc.devRef .tc Cert.KernelIdeal.main_v109),
    Cert.KernelIdeal.RunValue.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13, h14, h15⟩ := hagree c
  rw [Cert.ReferenceIdeal.ReadP.val_main_v112_eq, h0, h1, h2, h3, h4, h5, h6, h7, h8, h9, h10, h11, h12, h13, h14, h15]
  exact (Cert.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
